-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S200000x128 : Shape := ⟨2, ![200000, 128]⟩
abbrev S2x400000 : Shape := ⟨2, ![2, 400000]⟩
abbrev S400000 : Shape := ⟨1, ![400000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x400000 : S_.BroadcastsInDim S2x400000 (![] : Fin 0 → Fin S2x400000.rank)
  reducesTo_S2x400000_S_d0_1 : S2x400000.ReducesTo [0, 1] S_

variable [Facts]

def fn_part2 {F : FTy → Type} [FloatOps F] (main_v28 : IVec S_ 1) (main_v33 : IVec S2x400000 1) : IVec S_ 1 :=
  let main_c_12 : IVec S_ 1 := constantI S_ 1 1#1
  let main_v34 : IVec S_ 1 := (fun x v => Host.reduce IntOp.andi x v reducesTo_S2x400000_S_d0_1 h_S_) main_v33 main_c_12
  let main_v35 : IVec S_ 1 := andi main_v28 main_v34
  main_v35

def fn_part1 {F : FTy → Type} [FloatOps F] (main_arg2 : IVec S2x400000 32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 4294767296#32
  let main_v29 : IVec S2x400000 32 := broadcastInDim S2x400000 ![] bcast_S_S2x400000 main_c_10
  let main_v30 : IVec S2x400000 1 := cmpi .sge main_arg2 main_v29
  let main_c_11 : IVec S_ 32 := constantI S_ 32 200000#32
  let main_v31 : IVec S2x400000 32 := broadcastInDim S2x400000 ![] bcast_S_S2x400000 main_c_11
  let main_v32 : IVec S2x400000 1 := cmpi .slt main_arg2 main_v31
  let main_v33 : IVec S2x400000 1 := andi main_v30 main_v32
  fn_part2 (F := F) main_v28 main_v33

def fn {F : FTy → Type} [FloatOps F] (main_arg0 : FVec F S1000000x128 .f32) (main_arg1 : FVec F S200000x128 .f32) (main_arg2 : IVec S2x400000 32) (main_arg3 : IVec S400000 32) (main_arg4 : FVec F S384x128 .f32) (main_arg5 : FVec F S128 .f32) (main_arg6 : FVec F S128x128 .f32) (main_arg7 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_v13 main_v16
-- ==== Kernel.lean ====
abbrev S1000000x128 : Shape := ⟨2, ![1000000, 128]⟩
abbrev S200000x128 : Shape := ⟨2, ![200000, 128]⟩
abbrev S2x400000 : Shape := ⟨2, ![2, 400000]⟩
abbrev S400000 : Shape := ⟨1, ![400000]⟩
abbrev S384x128 : Shape := ⟨2, ![384, 128]⟩
abbrev S128 : Shape := ⟨1, ![128]⟩
abbrev S128x128 : Shape := ⟨2, ![128, 128]⟩
abbrev S1x400000 : Shape := ⟨2, ![1, 400000]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x128 : Shape := ⟨2, ![400000, 128]⟩
abbrev S1x128 : Shape := ⟨2, ![1, 128]⟩
abbrev S4000x128 : Shape := ⟨2, ![4000, 128]⟩

abbrev nBuf : Space → Nat
  | .hbm => 96
  | .vmem => 14
  | .smem => 0
  | _ => 0

abbrev bufTy : (tb : Table) → Fin (tcTables nBuf tb) → BufTy
  | .hbm, ⟨0, _⟩ => ⟨S1000000x128, .f32⟩
  | .hbm, ⟨1, _⟩ => ⟨S200000x128, .f32⟩
  | .hbm, ⟨2, _⟩ => ⟨S2x400000, .i32⟩
  | .hbm, ⟨3, _⟩ => ⟨S400000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S1, .i32⟩
  | .hbm, ⟨21, _⟩ => ⟨S_, .i32⟩
  | .hbm, ⟨22, _⟩ => ⟨S400000x1, .i32⟩
  | .hbm, ⟨23, _⟩ => ⟨S400000x1, .i1⟩
  | .hbm, ⟨24, _⟩ => ⟨S1x1, .i32⟩
  | .hbm, ⟨25, _⟩ => ⟨S400000x1, .i32⟩
  | .hbm, ⟨26, _⟩ => ⟨S400000x1, .i1⟩
  | .hbm, ⟨27, _⟩ => ⟨S400000x1, .i1⟩
  | .hbm, ⟨28, _⟩ => ⟨S_, .i1⟩
  | .hbm, ⟨29, _⟩ => ⟨S400000, .i1⟩
  | .hbm, ⟨30, _⟩ => ⟨S400000x128, .f32⟩
  | .hbm, ⟨31, _⟩ => ⟨S400000x128, .i1⟩
  | .hbm, ⟨32, _⟩ => ⟨S_, .f32⟩
  | .hbm, ⟨33, _⟩ => ⟨S400000x128, .f32⟩
  | .hbm, ⟨34, _⟩ => ⟨S400000x128, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S1, .i32⟩
  | .hbm, ⟨44, _⟩ => ⟨S_, .i32⟩
  | .hbm, ⟨45, _⟩ => ⟨S400000x1, .i32⟩
  | .hbm, ⟨46, _⟩ => ⟨S400000x1, .i1⟩
  | .hbm, ⟨47, _⟩ => ⟨S1x1, .i32⟩
  | .hbm, ⟨48, _⟩ => ⟨S400000x1, .i32⟩
  | .hbm, ⟨49, _⟩ => ⟨S400000x1, .i1⟩
  | .hbm, ⟨50, _⟩ => ⟨S400000x1, .i1⟩
  | .hbm, ⟨51, _⟩ => ⟨S_, .i1⟩
  | .hbm, ⟨52, _⟩ => ⟨S400000, .i1⟩
  | .hbm, ⟨53, _⟩ => ⟨S400000x128, .f32⟩
  | .hbm, ⟨54, _⟩ => ⟨S400000x128, .i1⟩
  | .hbm, ⟨55, _⟩ => ⟨S_, .f32⟩
  | .hbm, ⟨56, _⟩ => ⟨S400000x128, .f32⟩
  | .hbm, ⟨57, _⟩ => ⟨S400000x128, .f32⟩
  | .hbm, ⟨58, _⟩ => ⟨S_, .i32⟩
  | .hbm, ⟨59, _⟩ => ⟨S400000, .i32⟩
  | .hbm, ⟨60, _⟩ => ⟨S400000, .i1⟩
  | .hbm, ⟨61, _⟩ => ⟨S_, .i32⟩
  | .hbm, ⟨62, _⟩ => ⟨S400000, .i32⟩
  | .hbm, ⟨63, _⟩ => ⟨S400000, .i32⟩
  | .hbm, ⟨64, _⟩ => ⟨S400000, .i32⟩
  | .hbm, ⟨65, _⟩ => ⟨S400000x1, .i32⟩
  | .hbm, ⟨66, _⟩ => ⟨S1, .i32⟩
  | .hbm, ⟨67, _⟩ => ⟨S_, .i32⟩
  | .hbm, ⟨68, _⟩ => ⟨S400000x1, .i32⟩
  | .hbm, ⟨69, _⟩ => ⟨S400000x1, .i1⟩
  | .hbm, ⟨70, _⟩ => ⟨S1x1, .i32⟩
  | .hbm, ⟨71, _⟩ => ⟨S400000x1, .i32⟩
  | .hbm, ⟨72, _⟩ => ⟨S400000x1, .i1⟩
  | .hbm, ⟨73, _⟩ => ⟨S400000x1, .i1⟩
  | .hbm, ⟨74, _⟩ => ⟨S_, .i1⟩
  | .hbm, ⟨75, _⟩ => ⟨S400000, .i1⟩
  | .hbm, ⟨76, _⟩ => ⟨S400000x128, .f32⟩
  | .hbm, ⟨77, _⟩ => ⟨S400000x128, .i1⟩
  | .hbm, ⟨78, _⟩ => ⟨S_, .f32⟩
  | .hbm, ⟨79, _⟩ => ⟨S400000x128, .f32⟩
  | .hbm, ⟨80, _⟩ => ⟨S400000x128, .f32⟩
  | .hbm, ⟨81, _⟩ => ⟨S128x128, .f32⟩
  | .hbm, ⟨82, _⟩ => ⟨S128x128, .f32⟩
  | .hbm, ⟨83, _⟩ => ⟨S128x128, .f32⟩
  | .hbm, ⟨84, _⟩ => ⟨S1x128, .f32⟩
  | .hbm, ⟨85, _⟩ => ⟨S1x128, .f32⟩
  | .hbm, ⟨86, _⟩ => ⟨S400000x128, .f32⟩
  | .hbm, ⟨87, _⟩ => ⟨S_, .i32⟩
  | .hbm, ⟨88, _⟩ => ⟨S400000, .i32⟩
  | .hbm, ⟨89, _⟩ => ⟨S400000, .i1⟩
  | .hbm, ⟨90, _⟩ => ⟨S_, .i32⟩
  | .hbm, ⟨91, _⟩ => ⟨S400000, .i32⟩
  | .hbm, ⟨92, _⟩ => ⟨S400000, .i32⟩
  | .hbm, ⟨93, _⟩ => ⟨S400000, .i32⟩
  | .hbm, ⟨94, _⟩ => ⟨S400000x1, .i32⟩
  | .hbm, ⟨95, _⟩ => ⟨S1000000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v6 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_c : Ref sig .tc := ⟨.hbm, 87, rfl⟩
abbrev main_v13 : Ref sig .tc := ⟨.hbm, 88, rfl⟩
abbrev main_v14 : Ref sig .tc := ⟨.hbm, 89, rfl⟩
abbrev main_c_0 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S200000x128_S400000x1_S400000x128_1_0_n_n_0_1_1128_wf : GatherDims.WF S200000x128 S400000x1 S400000x128 [1] [0] [] [0] [] 1 ![1, 128]
  gather_S1000000x128_S400000x1_S400000x128_1_0_n_n_0_1_1128_wf : GatherDims.WF S1000000x128 S400000x1 S400000x128 [1] [0] [] [0] [] 1 ![1, 128]
  dot_S4000x128_S128x128_S4000x128_1_0_0_1_n_n_wf : DotDims.WF S4000x128 S128x128 S4000x128 [1] [0] [0] [1] [] []
  scatter_S1000000x128_S400000x1_S400000x128_1_0_0_1_wf : ScatterDims.WF S1000000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S400000x128.size a
  hwx0_9 : ∀ i : grid0.Coords, EltTy.bits .f32 = 32 ∨ (Rect.block (s := S400000x128) S4000x128.size (cc0_transform_9 i) (hinb0_9 i)).WholeWords (EltTy.packing .f32)

variable [Facts₀]

def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def gather_S1000000x128_S400000x1_S400000x128_1_0_n_n_0_1_1128 : GatherDims S1000000x128 S400000x1 S400000x128 where
  offsetDims := [1]
  collapsedSliceDims := [0]
  operandBatchingDims := []
  startIndicesBatchingDims := []
  startIndexMap := [0]
  indexVectorDim := 1
  sliceSizes := ![1, 128]
  wf := gather_S1000000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S1000000x128_S400000x1_S400000x128_1_0_0_1 : ScatterDims S1000000x128 S400000x1 S400000x128 where
  updateWindowDims := [1]
  insertedWindowDims := [0]
  scatterDimsToOperandDims := [0]
  indexVectorDim := 1
  wf := scatter_S1000000x128_S400000x1_S400000x128_1_0_0_1_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S200000x128 : Shape := ⟨2, ![200000, 128]⟩
abbrev S2x400000 : Shape := ⟨2, ![2, 400000]⟩
abbrev S400000 : Shape := ⟨1, ![400000]⟩
abbrev S384x128 : Shape := ⟨2, ![384, 128]⟩
abbrev S128 : Shape := ⟨1, ![128]⟩
abbrev S128x128 : Shape := ⟨2, ![128, 128]⟩
abbrev S1x400000 : Shape := ⟨2, ![1, 400000]⟩
abbrev S_ : Shape := ⟨0, ![]⟩
abbrev S400000x1 : Shape := ⟨2, ![400000, 1]⟩
abbrev S400000x128 : Shape := ⟨2, ![400000, 128]⟩
abbrev S400000x384 : Shape := ⟨2, ![400000, 384]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S200000x128, .f32⟩
  | .hbm, ⟨2, _⟩ => ⟨S2x400000, .i32⟩
  | .hbm, ⟨3, _⟩ => ⟨S400000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x128, .f32⟩
  | .hbm, ⟨30, _⟩ => ⟨S_, .i32⟩
  | .hbm, ⟨31, _⟩ => ⟨S400000, .i32⟩
  | .hbm, ⟨32, _⟩ => ⟨S400000, .i1⟩
  | .hbm, ⟨33, _⟩ => ⟨S_, .i32⟩
  | .hbm, ⟨34, _⟩ => ⟨S400000, .i32⟩
  | .hbm, ⟨35, _⟩ => ⟨S400000, .i32⟩
  | .hbm, ⟨36, _⟩ => ⟨S400000, .i32⟩
  | .hbm, ⟨37, _⟩ => ⟨S400000x1, .i32⟩
  | .hbm, ⟨38, _⟩ => ⟨S400000x128, .f32⟩
  | .hbm, ⟨39, _⟩ => ⟨S400000x384, .f32⟩
  | .hbm, ⟨40, _⟩ => ⟨S400000x128, .f32⟩
  | .hbm, ⟨41, _⟩ => ⟨S1x128, .f32⟩
  | .hbm, ⟨42, _⟩ => ⟨S400000x128, .f32⟩
  | .hbm, ⟨43, _⟩ => ⟨S400000x128, .f32⟩
  | .hbm, ⟨44, _⟩ => ⟨S400000x128, .f32⟩
  | .hbm, ⟨45, _⟩ => ⟨S400000x128, .f32⟩
  | .hbm, ⟨46, _⟩ => ⟨S_, .f32⟩
  | .hbm, ⟨47, _⟩ => ⟨S400000x128, .f32⟩
  | .hbm, ⟨48, _⟩ => ⟨S400000x128, .f32⟩
  | .hbm, ⟨49, _⟩ => ⟨S_, .f32⟩
  | .hbm, ⟨50, _⟩ => ⟨S400000x128, .f32⟩
  | .hbm, ⟨51, _⟩ => ⟨S400000x128, .f32⟩
  | .hbm, ⟨52, _⟩ => ⟨S400000x128, .f32⟩
  | .hbm, ⟨53, _⟩ => ⟨S400000x128, .f32⟩
  | .hbm, ⟨54, _⟩ => ⟨S1x128, .f32⟩
  | .hbm, ⟨55, _⟩ => ⟨S400000x128, .f32⟩
  | .hbm, ⟨56, _⟩ => ⟨S400000x128, .f32⟩
  | .hbm, ⟨57, _⟩ => ⟨S400000x128, .f32⟩
  | .hbm, ⟨58, _⟩ => ⟨S_, .i32⟩
  | .hbm, ⟨59, _⟩ => ⟨S400000, .i32⟩
  | .hbm, ⟨60, _⟩ => ⟨S400000, .i1⟩
  | .hbm, ⟨61, _⟩ => ⟨S_, .i32⟩
  | .hbm, ⟨62, _⟩ => ⟨S400000, .i32⟩
  | .hbm, ⟨63, _⟩ => ⟨S400000, .i32⟩
  | .hbm, ⟨64, _⟩ => ⟨S400000, .i32⟩
  | .hbm, ⟨65, _⟩ => ⟨S400000x1, .i32⟩
  | .hbm, ⟨66, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  gather_S1000000x128_S400000x1_S400000x128_1_0_n_n_0_1_1128_wf : GatherDims.WF S1000000x128 S400000x1 S400000x128 [1] [0] [] [0] [] 1 ![1, 128]
  gather_S200000x128_S400000x1_S400000x128_1_0_n_n_0_1_1128_wf : GatherDims.WF S200000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []
  scatter_S1000000x128_S400000x1_S400000x128_1_0_0_1_wf : ScatterDims.WF S1000000x128 S400000x1 S400000x128 [1] [0] [0] 1

variable [Facts₀]

def gather_S1000000x128_S400000x1_S400000x128_1_0_n_n_0_1_1128 : GatherDims S1000000x128 S400000x1 S400000x128 where
  offsetDims := [1]
  collapsedSliceDims := [0]
  operandBatchingDims := []
  startIndicesBatchingDims := []
  startIndexMap := [0]
  indexVectorDim := 1
  sliceSizes := ![1, 128]
  wf := gather_S1000000x128_S400000x1_S400000x128_1_0_n_n_0_1_1128_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S1000000x128_S400000x1_S400000x128_1_0_0_1 : ScatterDims S1000000x128 S400000x1 S400000x128 where
  updateWindowDims := [1]
  insertedWindowDims := [0]
  scatterDimsToOperandDims := [0]
  indexVectorDim := 1
  wf := scatter_S1000000x128_S400000x1_S400000x128_1_0_0_1_wf

class Facts : Prop extends Facts₀ where

variable [Facts]
-- ==== Proof.KernelHost.lean ====
/-
  The host side of the kernel's program, read as values.

  Before its one region the program prepares nine arrays from its arguments: the two rows of the edge list and the edge
  table's index vector are wrapped (a negative index counts from the end) and used to gather rows of the node table and
  of the edge table, each gather followed by a fill of the rows whose wrapped index is still out of range; the first
  weight matrix is cut into its three slabs; the two biases become rows. After the region it wraps the edge table's
  index vector once more and scatters the region's output rows back into the edge table. Each array is stated here as
  the composed term of the arguments.
-/
import proofs.«408659_j85323820302757_1_alg».proof.Proof.Gen.KernelIdeal.Frame
import Idealize.ShloMosaic.Lib.StableHlo.Run
import Idealize.ShloMosaic.Lib.ValueIdx

noncomputable section

namespace Cert.KernelHost

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-! ## The arguments, at literal types -/

abbrev x0 (c : Dev nD) : S1000000x128.Idx → EReal := m ((c : Thread nD τ).loc main_arg0)
abbrev x1 (c : Dev nD) : S200000x128.Idx → EReal := m ((c : Thread nD τ).loc main_arg1)
abbrev x2 (c : Dev nD) : IVec S2x400000 32 := m ((c : Thread nD τ).loc main_arg2)
abbrev x3 (c : Dev nD) : IVec S400000 32 := m ((c : Thread nD τ).loc main_arg3)
abbrev x4 (c : Dev nD) : S384x128.Idx → EReal := m ((c : Thread nD τ).loc main_arg4)
abbrev x5 (c : Dev nD) : S128.Idx → EReal := m ((c : Thread nD τ).loc main_arg5)
abbrev x6 (c : Dev nD) : S128x128.Idx → EReal := m ((c : Thread nD τ).loc main_arg6)
abbrev x7 (c : Dev nD) : S128.Idx → EReal := m ((c : Thread nD τ).loc main_arg7)

/-! ## The pieces -/

/-- An index vector wrapped (`i < 0 ↦ i + N`) and stood up as a column of start indices. -/
def normCol (N : BitVec 32) (v : IVec S400000 32) : IVec S400000x1 32 :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 N))) v)

/-- Row 0 and row 1 of the edge list as vectors. -/
def idxRow0 (e : IVec S2x400000 32) : IVec S400000 32 :=
  shapeCast S400000 (extractStridedSlice S1x400000 ![0, 0] e slices_S2x400000_S1x400000_0_0) shapeCasts_S1x400000_S400000
def idxRow1 (e : IVec S2x400000 32) : IVec S400000 32 :=
  shapeCast S400000 (extractStridedSlice S1x400000 ![1, 0] e slices_S2x400000_S1x400000_1_0) shapeCasts_S1x400000_S400000

/-- The mask of the rows whose start index lies in `[0, hiw]`, laid over the 128 columns. -/
def inRangeMask (hiw : BitVec 32) (col : IVec S400000x1 32) : IVec S400000x128 1 :=
  broadcastInDim S400000x128 ![0] bcast_S400000_S400000x128_0
    (Host.reduce IntOp.andi
      (andi (cmpi .sge col (broadcastInDim S400000x1 ![] bcast_S_S400000x1 (constantI S_ 32 0#32)))
        (cmpi .sle col (broadcastInDim S400000x1 ![0, 1] bcast_S1x1_S400000x1_0_1
          (broadcastInDim S1x1 ![1] bcast_S1_S1x1_1 (constantI S1 32 hiw)))))
      (constantI S_ 1 1#1) reducesTo_S400000x1_S400000_d1 h_S_)

/-- The fill value of an out-of-range row, everywhere. -/
def fillRows : S400000x128.Idx → EReal :=
  broadcastInDim S400000x128 ![] bcast_S_S400000x128 (constant (F := Ideal) S_ .f32 0x7FC00000#32)

/-! ## The arrays the region finds -/

set_option maxRecDepth 8192 in
set_option maxHeartbeats 2000000 in
theorem V_v4 (c : Dev nD) : (V m c main_v4 : S400000x128.Idx → EReal)
    = select (inRangeMask 199999#32 (normCol 200000#32 (idxRow0 (x2 m c))))
        (Host.gather gather_S200000x128_S400000x1_S400000x128_1_0_n_n_0_1_1128 (x1 m c) (normCol 200000#32 (idxRow0 (x2 m c)))) fillRows := by
  dsimp only [V, V0]
  simp only [hostOps0, hostOps0_1, hostOps0_2, hostOps0_3, hostOps0_4, List.flatten_cons, List.flatten_nil, List.append_nil, List.cons_append, List.nil_append]
  after_results_simp
  simp only [TRef.ofBuf, TRef.toBuf, cast_cast, cast_eq]
  unfold inRangeMask normCol idxRow0 fillRows
  rfl

set_option maxRecDepth 8192 in
set_option maxHeartbeats 2000000 in
theorem V_v5 (c : Dev nD) : (V m c main_v5 : S400000x128.Idx → EReal)
    = select (inRangeMask 199999#32 (normCol 200000#32 (idxRow1 (x2 m c))))
        (Host.gather gather_S200000x128_S400000x1_S400000x128_1_0_n_n_0_1_1128 (x1 m c) (normCol 200000#32 (idxRow1 (x2 m c)))) fillRows := by
  dsimp only [V, V0]
  simp only [hostOps0, hostOps0_1, hostOps0_2, hostOps0_3, hostOps0_4, List.flatten_cons, List.flatten_nil, List.append_nil, List.cons_append, List.nil_append]
  after_results_simp
  simp only [TRef.ofBuf, TRef.toBuf, cast_cast, cast_eq]
  unfold inRangeMask normCol idxRow1 fillRows
  rfl

set_option maxRecDepth 8192 in
set_option maxHeartbeats 2000000 in
theorem V_v6 (c : Dev nD) : (V m c main_v6 : S400000x128.Idx → EReal)
    = select (inRangeMask 999999#32 (normCol 1000000#32 (x3 m c)))
        (Host.gather gather_S1000000x128_S400000x1_S400000x128_1_0_n_n_0_1_1128 (x0 m c) (normCol 1000000#32 (x3 m c))) fillRows := by
  dsimp only [V, V0]
  simp only [hostOps0, hostOps0_1, hostOps0_2, hostOps0_3, hostOps0_4, List.flatten_cons, List.flatten_nil, List.append_nil, List.cons_append, List.nil_append]
  after_results_simp
  simp only [TRef.ofBuf, TRef.toBuf, cast_cast, cast_eq]
  unfold inRangeMask normCol fillRows
  rfl

theorem V_v7 (c : Dev nD) : (V m c main_v7 : S128x128.Idx → EReal)
    = extractStridedSlice S128x128 ![0, 0] (x4 m c) slices_S384x128_S128x128_0_0 := by
  dsimp only [V, V0]
  simp only [hostOps0, hostOps0_1, hostOps0_2, hostOps0_3, hostOps0_4, List.flatten_cons, List.flatten_nil, List.append_nil, List.cons_append, List.nil_append]
  after_results_simp

theorem V_v8 (c : Dev nD) : (V m c main_v8 : S128x128.Idx → EReal)
    = extractStridedSlice S128x128 ![128, 0] (x4 m c) slices_S384x128_S128x128_128_0 := by
  dsimp only [V, V0]
  simp only [hostOps0, hostOps0_1, hostOps0_2, hostOps0_3, hostOps0_4, List.flatten_cons, List.flatten_nil, List.append_nil, List.cons_append, List.nil_append]
  after_results_simp

theorem V_v9 (c : Dev nD) : (V m c main_v9 : S128x128.Idx → EReal)
    = extractStridedSlice S128x128 ![256, 0] (x4 m c) slices_S384x128_S128x128_256_0 := by
  dsimp only [V, V0]
  simp only [hostOps0, hostOps0_1, hostOps0_2, hostOps0_3, hostOps0_4, List.flatten_cons, List.flatten_nil, List.append_nil, List.cons_append, List.nil_append]
  after_results_simp

theorem V_v10 (c : Dev nD) : (V m c main_v10 : S1x128.Idx → EReal) = shapeCast S1x128 (x5 m c) shapeCasts_S128_S1x128 := by
  dsimp only [V, V0]
  simp only [hostOps0, hostOps0_1, hostOps0_2, hostOps0_3, hostOps0_4, List.flatten_cons, List.flatten_nil, List.append_nil, List.cons_append, List.nil_append]
  after_results_simp
  rfl

theorem V_v11 (c : Dev nD) : (V m c main_v11 : S1x128.Idx → EReal) = shapeCast S1x128 (x7 m c) shapeCasts_S128_S1x128 := by
  dsimp only [V, V0]
  simp only [hostOps0, hostOps0_1, hostOps0_2, hostOps0_3, hostOps0_4, List.flatten_cons, List.flatten_nil, List.append_nil, List.cons_append, List.nil_append]
  after_results_simp
  rfl

theorem V_arg6 (c : Dev nD) : (V m c main_arg6 : S128x128.Idx → EReal) = x6 m c := V_main_arg6 m c

/-! ## The result, after the region -/

/-- The program's result: the region's output rows scattered into the edge table at the wrapped indices. -/
theorem tail_v19 (c : Dev nD) :
    (Pipeline.afterTail₀ cfgs (dats m) 0 (V0 m) [hostOps1] c main_v19 : S1000000x128.Idx → EReal)
      = Host.scatter scatter_S1000000x128_S400000x1_S400000x128_1_0_0_1 (fun _ b => b) (x0 m c)
          (normCol 1000000#32 (x3 m c)) ((dats m 0 c).arrAt 9 cfg0.N) := by
  have h0 : Pipeline.withArrays (cfgs 0).spec c (V0 m c) (fun w => (dats m 0 c).arrAt w (cfgs 0).N) (Proc.devRef .tc main_arg0) = x0 m c :=
    (Pipeline.withArrays_of_ne _ c (V0 m c) _ main_arg0 (by exact (by decide : ∀ w, Pipeline.arrRef spec0 w ≠ main_arg0))).trans (V_main_arg0 m c)
  have h3 : Pipeline.withArrays (cfgs 0).spec c (V0 m c) (fun w => (dats m 0 c).arrAt w (cfgs 0).N) (Proc.devRef .tc main_arg3) = x3 m c :=
    (Pipeline.withArrays_of_ne _ c (V0 m c) _ main_arg3 (by exact (by decide : ∀ w, Pipeline.arrRef spec0 w ≠ main_arg3))).trans (V_main_arg3 m c)
  have h12 : Pipeline.withArrays (cfgs 0).spec c (V0 m c) (fun w => (dats m 0 c).arrAt w (cfgs 0).N) (Proc.devRef .tc main_v12) = (dats m 0 c).arrAt 9 cfg0.N :=
    Pipeline.withArrays_arr spec0 launch0.win.arr_inj c _ _ 9
  unfold Pipeline.afterTail₀
  show StableHlo.after hostOps1 _ (Proc.devRef .tc main_v19) = _
  after_results_simp
  rw [h0, h3, h12]
  rfl

end Cert.KernelHost

end
-- ==== Proof.PreDecode.lean ====
/-
  What the precondition says of the edge list: every entry of the `[2, 400000]` array of node indices lies in
  `[-200000, 200000)`, the range in which an index into the node table's 200000 rows is defined (a negative index counts
  from the end). The precondition is a conjunction of six finiteness tests and this range test, each an `and`-reduction
  of an elementwise comparison; the range test is its last conjunct.
-/
import proofs.«408659_j85323820302757_1_alg».proof.Pre_finite_inputs
import proofs.«408659_j85323820302757_1_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx Cert.Pre_finite_inputs

/-- Under the precondition every edge endpoint is a valid (possibly negative) index into the node table. -/
theorem edge_in_range (x0 : FVec Ideal S1000000x128 .f32) (x1 : FVec Ideal S200000x128 .f32) (x2 : IVec S2x400000 32)
    (x3 : IVec S400000 32) (x4 : FVec Ideal S384x128 .f32) (x5 : FVec Ideal S128 .f32) (x6 : FVec Ideal S128x128 .f32)
    (x7 : FVec Ideal S128 .f32)
    (h : Cert.Pre_finite_inputs.fn (F := Ideal) x0 x1 x2 x3 x4 x5 x6 x7 = fun _ => 1#1) (r : Fin 2) (e : Fin 400000) :
    -200000 ≤ (x2 (ix2 r e)).toInt ∧ (x2 (ix2 r e)).toInt < 200000 := by
  haveI : Subsingleton S_.Idx := ⟨fun a b => funext fun d => d.elim0⟩
  have h0 := congrFun h ix0
  dsimp only [fn, fn_part1, fn_part2] at h0
  change IntOp.andi _ _ = 1#1 at h0
  obtain ⟨-, h1⟩ := IntOp.andi_eq_one.1 h0
  have h2 := Host.reduce_andi_all _ _ _ _ ix0 h1 (ix2 r e)
  change IntOp.andi (IntOp.cmpi .sge (x2 (ix2 r e)) 4294767296#32) (IntOp.cmpi .slt (x2 (ix2 r e)) 200000#32) = 1#1 at h2
  obtain ⟨h3, h4⟩ := IntOp.andi_eq_one.1 h2
  have h5 := IntOp.cmpi_sge.1 h3
  have h6 := IntOp.cmpi_slt.1 h4
  have e1 : (4294767296#32 : BitVec 32).toInt = -200000 := by decide
  have e2 : (200000#32 : BitVec 32).toInt = 200000 := by decide
  rw [e1] at h5
  rw [e2] at h6
  exact ⟨h5, h6⟩

end Cert.PreDecode

end
-- ==== Proof.RowMlp.lean ====
/-
  The two-layer perceptron applied to one edge's row, as plain functions over the extended reals.

  An edge carries three rows of 128 numbers: the source node's features `hs`, the destination node's `hd` and the edge
  table's own row `st`. The first layer multiplies their concatenation (384 numbers) by a 384 × 128 matrix and adds a
  bias; `x ↦ x · σ(x)` (σ the logistic function) is applied entrywise; the second layer is a 128 × 128 matrix and a
  bias; the result is added to `st`.

  Two arrangements of the first layer are stated: over the concatenated row (one sum of 384 products), and over the
  three rows apart against the three 128-row slabs of the matrix (three sums of 128 products, added in order). They are
  equal because a finite sum over 384 = 128 + 128 + 128 indices splits into the sums over the three ranges, which needs
  only that addition of extended reals is associative and commutative: no finiteness.
-/
import Idealize.ShloMosaic.PureOps.Ideal
import Mathlib.Algebra.BigOperators.Fin

noncomputable section

namespace Cert.RowMlp

open Idealize.ShloMosaic

/-- The activation `x · σ(x)`. -/
def act (x : EReal) : EReal := x * Ideal.logistic x

/-- Entry `k` of the hidden row, the three input rows apart: each against its own slab of the first matrix. -/
def hidden3 (hs hd st : Fin 128 → EReal) (wa wb wc : Fin 128 → Fin 128 → EReal) (b1 : Fin 128 → EReal) (k : Fin 128) : EReal :=
  (((∑ j : Fin 128, hs j * wa j k) + (∑ j : Fin 128, hd j * wb j k)) + (∑ j : Fin 128, st j * wc j k)) + b1 k

/-- Entry `q` of the edge's new row, from the three rows apart. -/
def out3 (hs hd st : Fin 128 → EReal) (wa wb wc : Fin 128 → Fin 128 → EReal) (b1 : Fin 128 → EReal)
    (w2 : Fin 128 → Fin 128 → EReal) (b2 : Fin 128 → EReal) (q : Fin 128) : EReal :=
  st q + ((∑ k : Fin 128, act (hidden3 hs hd st wa wb wc b1 k) * w2 k q) + b2 q)

/-- Three rows of 128 laid end to end. -/
def cat3 (a b c : Fin 128 → EReal) (j : Fin 384) : EReal :=
  if h : j.val < 128 then a ⟨j.val, h⟩
  else if h2 : j.val < 256 then b ⟨j.val - 128, by omega⟩
  else c ⟨j.val - 256, by omega⟩

/-- Entry `k` of the hidden row over a concatenated row of 384. -/
def hidden1 (x : Fin 384 → EReal) (w1 : Fin 384 → Fin 128 → EReal) (b1 : Fin 128 → EReal) (k : Fin 128) : EReal :=
  (∑ j : Fin 384, x j * w1 j k) + b1 k

/-- Entry `q` of the edge's new row over a concatenated row. -/
def out1 (x : Fin 384 → EReal) (st : Fin 128 → EReal) (w1 : Fin 384 → Fin 128 → EReal) (b1 : Fin 128 → EReal)
    (w2 : Fin 128 → Fin 128 → EReal) (b2 : Fin 128 → EReal) (q : Fin 128) : EReal :=
  st q + ((∑ k : Fin 128, act (hidden1 x w1 b1 k) * w2 k q) + b2 q)

/-- Row `j` of slab `s` (0, 1 or 2) of a 384-row matrix. -/
def slab (w1 : Fin 384 → Fin 128 → EReal) (s : Fin 3) (j : Fin 128) : Fin 128 → EReal :=
  w1 ⟨128 * s.val + j.val, by have := s.isLt; have := j.isLt; omega⟩

/-- A sum over 384 indices of a concatenated row against weights is the three sums over the pieces. -/
theorem sum_cat3 (a b c : Fin 128 → EReal) (w : Fin 384 → EReal) :
    ∑ j : Fin 384, cat3 a b c j * w j
      = ((∑ j : Fin 128, a j * w ⟨j.val, by have := j.isLt; omega⟩)
          + (∑ j : Fin 128, b j * w ⟨128 + j.val, by have := j.isLt; omega⟩))
        + (∑ j : Fin 128, c j * w ⟨256 + j.val, by have := j.isLt; omega⟩) := by
  have h1 : ∑ j : Fin 384, cat3 a b c j * w j = ∑ j : Fin (128 + 128 + 128), cat3 a b c j * w j := rfl
  have e1 : ∀ j : Fin 128, cat3 a b c (Fin.castAdd 128 (Fin.castAdd 128 j) : Fin (128 + 128 + 128))
        * w (Fin.castAdd 128 (Fin.castAdd 128 j) : Fin (128 + 128 + 128))
      = a j * w ⟨j.val, by have := j.isLt; omega⟩ := by
    intro j
    have hlt : (Fin.castAdd 128 (Fin.castAdd 128 j) : Fin (128 + 128 + 128)).val < 128 := j.isLt
    have hc : cat3 a b c (Fin.castAdd 128 (Fin.castAdd 128 j) : Fin (128 + 128 + 128)) = a j := by
      unfold cat3
      exact dif_pos hlt
    rw [hc]
    exact rfl
  have e2 : ∀ j : Fin 128, cat3 a b c (Fin.castAdd 128 (Fin.natAdd 128 j) : Fin (128 + 128 + 128))
        * w (Fin.castAdd 128 (Fin.natAdd 128 j) : Fin (128 + 128 + 128))
      = b j * w ⟨128 + j.val, by have := j.isLt; omega⟩ := by
    intro j
    have hj := j.isLt
    have hv : (Fin.castAdd 128 (Fin.natAdd 128 j) : Fin (128 + 128 + 128)).val = 128 + j.val := rfl
    have hc : cat3 a b c (Fin.castAdd 128 (Fin.natAdd 128 j) : Fin (128 + 128 + 128)) = b j := by
      unfold cat3
      rw [dif_neg (by omega), dif_pos (by omega)]
      congr 1
      apply Fin.ext
      show (Fin.castAdd 128 (Fin.natAdd 128 j) : Fin (128 + 128 + 128)).val - 128 = j.val
      omega
    rw [hc]
    exact rfl
  have e3 : ∀ j : Fin 128, cat3 a b c (Fin.natAdd (128 + 128) j : Fin (128 + 128 + 128))
        * w (Fin.natAdd (128 + 128) j : Fin (128 + 128 + 128))
      = c j * w ⟨256 + j.val, by have := j.isLt; omega⟩ := by
    intro j
    have hj := j.isLt
    have hv : (Fin.natAdd (128 + 128) j : Fin (128 + 128 + 128)).val = 256 + j.val := rfl
    have hc : cat3 a b c (Fin.natAdd (128 + 128) j : Fin (128 + 128 + 128)) = c j := by
      unfold cat3
      rw [dif_neg (by omega), dif_neg (by omega)]
      congr 1
      apply Fin.ext
      show (Fin.natAdd (128 + 128) j : Fin (128 + 128 + 128)).val - 256 = j.val
      omega
    rw [hc]
    exact rfl
  rw [h1, Fin.sum_univ_add, Fin.sum_univ_add, Fintype.sum_congr _ _ e1, Fintype.sum_congr _ _ e2,
    Fintype.sum_congr _ _ e3]

/-- The two arrangements of the layer agree. -/
theorem out1_cat3 (hs hd st : Fin 128 → EReal) (w1 : Fin 384 → Fin 128 → EReal) (b1 : Fin 128 → EReal)
    (w2 : Fin 128 → Fin 128 → EReal) (b2 : Fin 128 → EReal) (q : Fin 128) :
    out1 (cat3 hs hd st) st w1 b1 w2 b2 q
      = out3 hs hd st (slab w1 0) (slab w1 1) (slab w1 2) b1 w2 b2 q := by
  have hh : ∀ k : Fin 128, hidden1 (cat3 hs hd st) w1 b1 k
      = hidden3 hs hd st (slab w1 0) (slab w1 1) (slab w1 2) b1 k := by
    intro k
    unfold hidden1 hidden3
    rw [sum_cat3 hs hd st (fun j => w1 j k)]
    have s0 : ∀ j : Fin 128, slab w1 0 j k = w1 ⟨j.val, by have := j.isLt; omega⟩ k := by
      intro j
      unfold slab
      congr 2
      show 128 * 0 + j.val = j.val
      omega
    have s1 : ∀ j : Fin 128, slab w1 1 j k = w1 ⟨128 + j.val, by have := j.isLt; omega⟩ k := by
      intro j
      unfold slab
      congr 2
    have s2 : ∀ j : Fin 128, slab w1 2 j k = w1 ⟨256 + j.val, by have := j.isLt; omega⟩ k := by
      intro j
      unfold slab
      congr 2
    simp only [s0, s1, s2]
  unfold out1 out3
  simp only [hh]

end Cert.RowMlp

end
-- ==== Proof.KernelBody.lean ====
/-
  What one grid point of the kernel leaves in its output block, read at a row and a column: the perceptron's row
  function of the three input blocks' rows and the weight blocks, in the arrangement with the three rows apart.
-/
import proofs.«408659_j85323820302757_1_alg».proof.Proof.Gen.KernelIdeal.Frame
import proofs.«408659_j85323820302757_1_alg».proof.Proof.RowMlp
import Idealize.ShloMosaic.Lib.Pipeline.Value
import Idealize.ShloMosaic.Lib.ValueIdx
import Idealize.ShloMosaic.Lib.ValueLayout
import Idealize.ShloMosaic.PureOps.Ideal.Laws

noncomputable section

namespace Cert.KernelBody

open Idealize.ShloMosaic Idealize.ShloMosaic.ValueIdx Cert.KernelIdeal Cert.KernelIdeal.Gen

/-- Left operand's index at output `i` and contraction `q`: axis 0 is the output's row. -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- Left operand's axis 1 is the contraction index. -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- Right operand's axis 0 is the contraction index. -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- Right operand's axis 1 is the output's column. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A product into the zero accumulator, read at `(p, k)`: the sum over the 128 contraction indices. -/
theorem matmul0_apply (l : FVec Ideal S4000x128 .bf16) (r : FVec Ideal S128x128 .bf16) (p : Fin 4000) (k : Fin 128) :
    matmul dot_S4000x128_S128x128_S4000x128_1_0_0_1_n_n none l r (constant S4000x128 .f32 0x00000000#32) (ix2 p k)
      = ∑ j : Fin 128, l (ix2 p j) * r (ix2 j k) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun j _ => ?_
  have hk := ValueIdx.contrEquiv1_symm_val dot_S4000x128_S128x128_S4000x128_1_0_0_1_n_n 128 rfl rfl j
  have el : dot_S4000x128_S128x128_S4000x128_1_0_0_1_n_n.lhsIdx (ix2 p k) ((ValueIdx.contrEquiv1 dot_S4000x128_S128x128_S4000x128_1_0_0_1_n_n 128 rfl rfl).symm j) = ix2 p j := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p k) ((ValueIdx.contrEquiv1 dot_S4000x128_S128x128_S4000x128_1_0_0_1_n_n 128 rfl rfl).symm j) = ix2 j k := funext fun a => Fin.ext (by
    match a with
    | ⟨0, _⟩ => exact (rhs_dot_0 _ _).trans hk
    | ⟨1, _⟩ => exact rhs_dot_1 _ _)
  rw [el, er]

/-- Entry `(p, q)` of the block the body stores. -/
theorem out0_9_apply (x0 x1 x2 : Vec Ideal S4000x128 .f32) (x3 x4 x5 : Vec Ideal S128x128 .f32) (x6 : Vec Ideal S1x128 .f32)
    (x7 : Vec Ideal S128x128 .f32) (x8 : Vec Ideal S1x128 .f32) (p : Fin 4000) (q : Fin 128) :
    out0_9 (F := Ideal) x0 x1 x2 x3 x4 x5 x6 x7 x8 (ix2 p q)
      = RowMlp.out3 (fun j => x0 (ix2 p j)) (fun j => x1 (ix2 p j)) (fun j => x2 (ix2 p j))
          (fun j k => x3 (ix2 j k)) (fun j k => x4 (ix2 j k)) (fun j k => x5 (ix2 j k)) (fun k => x6 (ix2 (0 : Fin 1) k))
          (fun k r => x7 (ix2 k r)) (fun r => x8 (ix2 (0 : Fin 1) r)) q := by
  have hz : (![0, 0] : Fin 2 → Nat) = fun _ => 0 := funext fun a => by fin_cases a <;> rfl
  unfold out0_9
  rw [View.canon_unit_zero hz]
  simp only [View.ld_unit_zero (S := S4000x128) hz, View.ld_unit_zero (S := S128x128) hz, View.ld_unit_zero (S := S1x128) hz]
  unfold k0_pay1 k0_pay2 k0_pay3
  simp only [shapeCast_self]
  unfold k0_pay2
  simp only [shapeCast_self]
  simp only [addf_apply, mulf_apply, truncf_apply, matmul0_apply, broadcastTo_1b_ab_apply, logistic, Ideal.logistic_def]
  rfl

end Cert.KernelBody

end
-- ==== Proof.KernelArray.lean ====
/-
  The array the kernel's one region leaves behind, as ONE function of the arrays it reads.

  The region walks 100 grid points; point `t` reads rows `4000 t … 4000 t + 3999` of the three gathered row arrays and
  the whole of the six weight and bias arrays, and writes rows `4000 t … 4000 t + 3999` of the output. What it writes
  at row `p` of its block depends only on row `p` of each input block, so every block is the restriction of one
  whole-array function `G`: entry `(e, q)` is the perceptron's row function of rows `e` of the three row arrays. The
  100 row blocks cover the output array, so after the run the array is `G`.
-/
import proofs.«408659_j85323820302757_1_alg».proof.Proof.Gen.KernelIdeal.Frame
import proofs.«408659_j85323820302757_1_alg».proof.Proof.KernelBody
import proofs.«408659_j85323820302757_1_alg».proof.Proof.RowMlp
import Idealize.ShloMosaic.Lib.Pipeline.Value
import Idealize.ShloMosaic.Lib.ValueIdx

set_option maxRecDepth 16384

noncomputable section

namespace Cert.KernelArray

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-! ## The arrays the region reads, as it finds them -/

/-- The gathered source rows, destination rows and table rows. -/
abbrev aHs (c : Dev nD) : S400000x128.Idx → EReal := V m c main_v4
abbrev aHd (c : Dev nD) : S400000x128.Idx → EReal := V m c main_v5
abbrev aSt (c : Dev nD) : S400000x128.Idx → EReal := V m c main_v6
/-- The three slabs of the first matrix, the first bias as a row, the second matrix, the second bias as a row. -/
abbrev aWa (c : Dev nD) : S128x128.Idx → EReal := V m c main_v7
abbrev aWb (c : Dev nD) : S128x128.Idx → EReal := V m c main_v8
abbrev aWc (c : Dev nD) : S128x128.Idx → EReal := V m c main_v9
abbrev aB1 (c : Dev nD) : S1x128.Idx → EReal := V m c main_v10
abbrev aW2 (c : Dev nD) : S128x128.Idx → EReal := V m c main_arg6
abbrev aB2 (c : Dev nD) : S1x128.Idx → EReal := V m c main_v11

/-- Row `e`'s new row, entry `q`: the perceptron on rows `e` of the three row arrays. -/
def rowOut (c : Dev nD) (e : Fin 400000) (q : Fin 128) : EReal :=
  RowMlp.out3 (fun j => aHs m c (ix2 e j)) (fun j => aHd m c (ix2 e j)) (fun j => aSt m c (ix2 e j))
    (fun j k => aWa m c (ix2 j k)) (fun j k => aWb m c (ix2 j k)) (fun j k => aWc m c (ix2 j k))
    (fun k => aB1 m c (ix2 (0 : Fin 1) k)) (fun k r => aW2 m c (ix2 k r)) (fun r => aB2 m c (ix2 (0 : Fin 1) r)) q

/-- The output array as one function of its index. -/
def G (c : Dev nD) : S400000x128.Idx → EReal := fun i => rowOut m c ⟨(i 0).val, (i 0).isLt⟩ ⟨(i 1).val, (i 1).isLt⟩

theorem G_ix2 (c : Dev nD) (e : Fin 400000) (q : Fin 128) : G m c (ix2 e q) = rowOut m c e q := rfl

/-! ## The printed index maps, decided over the 100 points -/

/-- The row windows (0, 1, 2 and the output 9) sit at block row `t`, column block 0; the weight windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## Each input block is its array read through the block's rows -/

theorem blk0_apply (c : Dev nD) (t : Fin cfg0.N) (p : Fin 4000) (q : Fin 128) (e : Fin 400000) (he : e.val = t.val * 4000 + p.val) :
    (iblk m c 0 t : Vec Ideal S4000x128 .f32) (ix2 p q) = aHs m c (ix2 e q) := by
  obtain ⟨⟨h0, h1⟩, -⟩ := idx_facts t
  unfold iblk
  rw [View.read_apply]
  show V m c main_v4 _ = V m c main_v4 _
  congr 1
  funext a
  apply Fin.ext
  match a with
  | ⟨0, _⟩ => show win0_0.index t (0 : Fin 2) * 4000 + 1 * p.val = e.val; rw [h0, he]; omega
  | ⟨1, _⟩ => show win0_0.index t (1 : Fin 2) * 128 + 1 * q.val = q.val; rw [h1]; omega

theorem blk1_apply (c : Dev nD) (t : Fin cfg0.N) (p : Fin 4000) (q : Fin 128) (e : Fin 400000) (he : e.val = t.val * 4000 + p.val) :
    (iblk m c 1 t : Vec Ideal S4000x128 .f32) (ix2 p q) = aHd m c (ix2 e q) := by
  obtain ⟨-, ⟨h0, h1⟩, -⟩ := idx_facts t
  unfold iblk
  rw [View.read_apply]
  show V m c main_v5 _ = V m c main_v5 _
  congr 1
  funext a
  apply Fin.ext
  match a with
  | ⟨0, _⟩ => show win0_1.index t (0 : Fin 2) * 4000 + 1 * p.val = e.val; rw [h0, he]; omega
  | ⟨1, _⟩ => show win0_1.index t (1 : Fin 2) * 128 + 1 * q.val = q.val; rw [h1]; omega

theorem blk2_apply (c : Dev nD) (t : Fin cfg0.N) (p : Fin 4000) (q : Fin 128) (e : Fin 400000) (he : e.val = t.val * 4000 + p.val) :
    (iblk m c 2 t : Vec Ideal S4000x128 .f32) (ix2 p q) = aSt m c (ix2 e q) := by
  obtain ⟨-, -, ⟨h0, h1⟩, -⟩ := idx_facts t
  unfold iblk
  rw [View.read_apply]
  show V m c main_v6 _ = V m c main_v6 _
  congr 1
  funext a
  apply Fin.ext
  match a with
  | ⟨0, _⟩ => show win0_2.index t (0 : Fin 2) * 4000 + 1 * p.val = e.val; rw [h0, he]; omega
  | ⟨1, _⟩ => show win0_2.index t (1 : Fin 2) * 128 + 1 * q.val = q.val; rw [h1]; omega

/-- A weight window's one block is its whole array. -/
theorem blk3_apply (c : Dev nD) (t : Fin cfg0.N) (j k : Fin 128) :
    (iblk m c 3 t : Vec Ideal S128x128 .f32) (ix2 j k) = aWa m c (ix2 j k) := by
  obtain ⟨-, -, -, ⟨h0, h1⟩, -⟩ := idx_facts t
  unfold iblk
  rw [View.read_apply]
  show V m c main_v7 _ = V m c main_v7 _
  congr 1
  funext a
  apply Fin.ext
  match a with
  | ⟨0, _⟩ => show win0_3.index t (0 : Fin 2) * 128 + 1 * j.val = j.val; rw [h0]; omega
  | ⟨1, _⟩ => show win0_3.index t (1 : Fin 2) * 128 + 1 * k.val = k.val; rw [h1]; omega

theorem blk4_apply (c : Dev nD) (t : Fin cfg0.N) (j k : Fin 128) :
    (iblk m c 4 t : Vec Ideal S128x128 .f32) (ix2 j k) = aWb m c (ix2 j k) := by
  obtain ⟨-, -, -, -, ⟨h0, h1⟩, -⟩ := idx_facts t
  unfold iblk
  rw [View.read_apply]
  show V m c main_v8 _ = V m c main_v8 _
  congr 1
  funext a
  apply Fin.ext
  match a with
  | ⟨0, _⟩ => show win0_4.index t (0 : Fin 2) * 128 + 1 * j.val = j.val; rw [h0]; omega
  | ⟨1, _⟩ => show win0_4.index t (1 : Fin 2) * 128 + 1 * k.val = k.val; rw [h1]; omega

theorem blk5_apply (c : Dev nD) (t : Fin cfg0.N) (j k : Fin 128) :
    (iblk m c 5 t : Vec Ideal S128x128 .f32) (ix2 j k) = aWc m c (ix2 j k) := by
  obtain ⟨-, -, -, -, -, ⟨h0, h1⟩, -⟩ := idx_facts t
  unfold iblk
  rw [View.read_apply]
  show V m c main_v9 _ = V m c main_v9 _
  congr 1
  funext a
  apply Fin.ext
  match a with
  | ⟨0, _⟩ => show win0_5.index t (0 : Fin 2) * 128 + 1 * j.val = j.val; rw [h0]; omega
  | ⟨1, _⟩ => show win0_5.index t (1 : Fin 2) * 128 + 1 * k.val = k.val; rw [h1]; omega

theorem blk6_apply (c : Dev nD) (t : Fin cfg0.N) (k : Fin 128) :
    (iblk m c 6 t : Vec Ideal S1x128 .f32) (ix2 (0 : Fin 1) k) = aB1 m c (ix2 (0 : Fin 1) k) := by
  obtain ⟨-, -, -, -, -, -, ⟨h0, h1⟩, -⟩ := idx_facts t
  unfold iblk
  rw [View.read_apply]
  show V m c main_v10 _ = V m c main_v10 _
  congr 1
  funext a
  apply Fin.ext
  match a with
  | ⟨0, _⟩ => show win0_6.index t (0 : Fin 2) * 1 + 1 * 0 = 0; rw [h0]
  | ⟨1, _⟩ => show win0_6.index t (1 : Fin 2) * 128 + 1 * k.val = k.val; rw [h1]; omega

theorem blk7_apply (c : Dev nD) (t : Fin cfg0.N) (j k : Fin 128) :
    (iblk m c 7 t : Vec Ideal S128x128 .f32) (ix2 j k) = aW2 m c (ix2 j k) := by
  obtain ⟨-, -, -, -, -, -, -, ⟨h0, h1⟩, -⟩ := idx_facts t
  unfold iblk
  rw [View.read_apply]
  show V m c main_arg6 _ = V m c main_arg6 _
  congr 1
  funext a
  apply Fin.ext
  match a with
  | ⟨0, _⟩ => show win0_7.index t (0 : Fin 2) * 128 + 1 * j.val = j.val; rw [h0]; omega
  | ⟨1, _⟩ => show win0_7.index t (1 : Fin 2) * 128 + 1 * k.val = k.val; rw [h1]; omega

theorem blk8_apply (c : Dev nD) (t : Fin cfg0.N) (k : Fin 128) :
    (iblk m c 8 t : Vec Ideal S1x128 .f32) (ix2 (0 : Fin 1) k) = aB2 m c (ix2 (0 : Fin 1) k) := by
  obtain ⟨-, -, -, -, -, -, -, -, ⟨h0, h1⟩, -⟩ := idx_facts t
  unfold iblk
  rw [View.read_apply]
  show V m c main_v11 _ = V m c main_v11 _
  congr 1
  funext a
  apply Fin.ext
  match a with
  | ⟨0, _⟩ => show win0_8.index t (0 : Fin 2) * 1 + 1 * 0 = 0; rw [h0]
  | ⟨1, _⟩ => show win0_8.index t (1 : Fin 2) * 128 + 1 * k.val = k.val; rw [h1]; omega

/-! ## What a point writes back is its block of `G` -/

/-- Two functions on a 4000 × 128 block that agree at every (row, column) are equal. -/
theorem funext_blk (f g : S4000x128.Idx → EReal) (h : ∀ (p : Fin 4000) (q : Fin 128), f (ix2 p q) = g (ix2 p q)) : f = g :=
  funext fun y => by rw [eq_ix2 y]; exact h _ _

/-- The row function depends on its nine arguments only through their values. -/
theorem out3_congr {hs hs' hd hd' st st' : Fin 128 → EReal} {wa wa' wb wb' wc wc' : Fin 128 → Fin 128 → EReal} {b1 b1' : Fin 128 → EReal}
    {w2 w2' : Fin 128 → Fin 128 → EReal} {b2 b2' : Fin 128 → EReal} (q : Fin 128)
    (e0 : hs = hs') (e1 : hd = hd') (e2 : st = st') (e3 : wa = wa') (e4 : wb = wb') (e5 : wc = wc') (e6 : b1 = b1') (e7 : w2 = w2')
    (e8 : b2 = b2') : RowMlp.out3 hs hd st wa wb wc b1 w2 b2 q = RowMlp.out3 hs' hd' st' wa' wb' wc' b1' w2' b2' q := by
  subst e0 e1 e2 e3 e4 e5 e6 e7 e8; rfl

end Cert.KernelArray

end
-- ==== Proof.KernelFlush.lean ====
/-
  What grid point `t` of the kernel's region writes back is block `t` of the whole-array function `G`: the body's
  stored block, read at a row and a column, is the row function of the input blocks' rows, and each input block is its
  array read through the block's rows.
-/
import proofs.«408659_j85323820302757_1_alg».proof.Proof.Gen.KernelIdeal.Frame
import proofs.«408659_j85323820302757_1_alg».proof.Proof.KernelBody
import proofs.«408659_j85323820302757_1_alg».proof.Proof.KernelArray
import proofs.«408659_j85323820302757_1_alg».proof.Proof.RowMlp
import Idealize.ShloMosaic.Lib.Pipeline.Value
import Idealize.ShloMosaic.Lib.ValueIdx

set_option maxRecDepth 16384

noncomputable section

namespace Cert.KernelArray

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  show (out0_9 (iblk m c 0 t) (iblk m c 1 t) (iblk m c 2 t) (iblk m c 3 t) (iblk m c 4 t) (iblk m c 5 t) (iblk m c 6 t) (iblk m c 7 t) (iblk m c 8 t) : S4000x128.Idx → EReal)
    = fun y : S4000x128.Idx => G m c (((cfg0.win 9).blk t).view.emb y)
  refine funext_blk _ _ fun p q => ?_
  have hN : cfg0.N = 100 := N_0
  have ht : t.val < 100 := hN ▸ t.isLt
  obtain ⟨-, -, -, -, -, -, -, -, -, ⟨h0, h1⟩⟩ := idx_facts t
  have hemb : ((cfg0.win 9).blk t).view.emb (ix2 p q) = ix2 (⟨t.val * 4000 + p.val, by have := p.isLt; omega⟩ : Fin 400000) q := by
    funext a
    apply Fin.ext
    match a with
    | ⟨0, _⟩ => show win0_9.index t (0 : Fin 2) * 4000 + 1 * p.val = t.val * 4000 + p.val; rw [h0]; omega
    | ⟨1, _⟩ => show win0_9.index t (1 : Fin 2) * 128 + 1 * q.val = q.val; rw [h1]; omega
  refine (KernelBody.out0_9_apply (iblk m c 0 t) (iblk m c 1 t) (iblk m c 2 t) (iblk m c 3 t) (iblk m c 4 t) (iblk m c 5 t) (iblk m c 6 t) (iblk m c 7 t) (iblk m c 8 t) p q).trans ?_
  refine Eq.trans ?_ (congrArg (G m c) hemb).symm
  rw [G_ix2]
  unfold rowOut
  exact out3_congr q
    (funext fun j => blk0_apply m c t p j _ rfl) (funext fun j => blk1_apply m c t p j _ rfl) (funext fun j => blk2_apply m c t p j _ rfl)
    (funext fun j => funext fun k => blk3_apply m c t j k) (funext fun j => funext fun k => blk4_apply m c t j k)
    (funext fun j => funext fun k => blk5_apply m c t j k) (funext fun k => blk6_apply m c t k)
    (funext fun k => funext fun r => blk7_apply m c t k r) (funext fun r => blk8_apply m c t r)

end Cert.KernelArray

end
-- ==== Proof.KernelCover.lean ====
/-
  The 100 row blocks the region writes back cover the output array (row `r` lies in block `r / 4000`), so after the run
  the array is the whole-array function `G`.
-/
import proofs.«408659_j85323820302757_1_alg».proof.Proof.Gen.KernelIdeal.Frame
import proofs.«408659_j85323820302757_1_alg».proof.Proof.KernelArray
import proofs.«408659_j85323820302757_1_alg».proof.Proof.KernelFlush
import Idealize.ShloMosaic.Lib.Pipeline.Value
import Idealize.ShloMosaic.Lib.ValueIdx

set_option maxRecDepth 16384

noncomputable section

namespace Cert.KernelArray

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-! ## The blocks cover the array -/

theorem mem_blk (t : Fin cfg0.N) (i : S400000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v12).slice (win0_9.rect t)).set ↔ _
  rw [View.set_slice_whole, Rect.mem_set_unit]
  exact Iff.rfl

theorem cover (i : S400000x128.Idx) : ∃ t : Fin cfg0.N, (cfg0.win 9).flush t = true ∧ i ∈ ((cfg0.win 9).blk t).view.set := by
  have hN : cfg0.N = 100 := N_0
  have hi0 : (i 0).val < 400000 := (i 0).isLt
  have hi1 : (i 1).val < 128 := (i 1).isLt
  let t : Fin cfg0.N := ⟨(i 0).val / 4000, by rw [hN]; omega⟩
  obtain ⟨-, -, -, -, -, -, -, -, -, ⟨h0, h1⟩⟩ := idx_facts t
  have ht : t.val = (i 0).val / 4000 := rfl
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; rw [h0, ht]; omega
  | ⟨1, _⟩ => show win0_9.index t (1 : Fin 2) * 128 ≤ (i 1).val ∧ (i 1).val < win0_9.index t (1 : Fin 2) * 128 + 128; rw [h1]; omega

/-- THE ARRAY after the run is `G`. -/
theorem arr9 (c : Dev nD) : ((dats m 0 c).arrAt 9 cfg0.N : S400000x128.Idx → EReal) = G m c :=
  (dats m 0 c).arrAt_eq_of_cover 9 (G m c) (fun t _ => flushed_eq m c t) cover

end Cert.KernelArray

end
-- ==== Proof.ConcatRows.lean ====
/-
  Three arrays of rows of 128 numbers joined along the row's axis, read at a row and a column: the joined row is the
  three rows laid end to end.
-/
import proofs.«408659_j85323820302757_1_alg».proof.Proof.RowMlp
import Idealize.ShloMosaic.Lib.Pipeline.Value
import Idealize.ShloMosaic.Lib.ValueIdx

noncomputable section

namespace Cert.ConcatRows

open Idealize.ShloMosaic Idealize.ShloMosaic.ValueIdx

/-- Entry `(e, j)` of the concatenation along axis 1 of three `[n, 128]` arrays is entry `j` of the three rows `e` laid
    end to end. -/
theorem concat3_apply {n : Nat} (a b c : (⟨2, ![n, 128]⟩ : Shape).Idx → EReal)
    (h : Shape.Concatenates (([⟨(⟨2, ![n, 128]⟩ : Shape), a⟩, ⟨(⟨2, ![n, 128]⟩ : Shape), b⟩, ⟨(⟨2, ![n, 128]⟩ : Shape), c⟩] :
      List ((s : Shape) × (s.Idx → EReal))).map (·.1)) (⟨2, ![n, 384]⟩ : Shape) 1)
    (e : Fin n) (j : Fin 384) :
    concatenate (⟨2, ![n, 384]⟩ : Shape) 1 [⟨(⟨2, ![n, 128]⟩ : Shape), a⟩, ⟨(⟨2, ![n, 128]⟩ : Shape), b⟩, ⟨(⟨2, ![n, 128]⟩ : Shape), c⟩] h (ix2 e j)
      = RowMlp.cat3 (fun k => a (ix2 e k)) (fun k => b (ix2 e k)) (fun k => c (ix2 e k)) j := by
  unfold RowMlp.cat3
  by_cases h1 : j.val < 128
  · rw [dif_pos h1]
    exact concatenate_apply_piece (t := (⟨2, ![n, 384]⟩ : Shape)) 1 _ h (ix2 e j) 0 (by show (0 : Nat) < 3; omega)
      (⟨2, ![n, 128]⟩ : Shape) a rfl rfl 0 rfl (ix2 e ⟨j.val, h1⟩)
      (fun b hb => match b, hb with
        | ⟨0, _⟩, _ => rfl
        | ⟨1, _⟩, hb => absurd rfl hb)
      (by show 0 + j.val = j.val; omega)
  · rw [dif_neg h1]
    by_cases h2 : j.val < 256
    · rw [dif_pos h2]
      exact concatenate_apply_piece (t := (⟨2, ![n, 384]⟩ : Shape)) 1 _ h (ix2 e j) 1 (by show (1 : Nat) < 3; omega)
        (⟨2, ![n, 128]⟩ : Shape) b rfl rfl 128 rfl (ix2 e ⟨j.val - 128, by omega⟩)
        (fun b hb => match b, hb with
          | ⟨0, _⟩, _ => rfl
          | ⟨1, _⟩, hb => absurd rfl hb)
        (by show 128 + (j.val - 128) = j.val; omega)
    · rw [dif_neg h2]
      exact concatenate_apply_piece (t := (⟨2, ![n, 384]⟩ : Shape)) 1 _ h (ix2 e j) 2 (by show (2 : Nat) < 3; omega)
        (⟨2, ![n, 128]⟩ : Shape) c rfl rfl 256 rfl (ix2 e ⟨j.val - 256, by omega⟩)
        (fun b hb => match b, hb with
          | ⟨0, _⟩, _ => rfl
          | ⟨1, _⟩, hb => absurd rfl hb)
        (by show 256 + (j.val - 256) = j.val; omega)

end Cert.ConcatRows

end
-- ==== Proof.RefValue.lean ====
/-
  The reference's update array (the rows it scatters back), read at a row and a column: the perceptron's row function
  over the concatenated row, of the three gathered rows and the weight arrays.
-/
import proofs.«408659_j85323820302757_1_alg».proof.Proof.Gen.ReferenceIdeal.Read
import proofs.«408659_j85323820302757_1_alg».proof.Proof.RowMlp
import proofs.«408659_j85323820302757_1_alg».proof.Proof.ConcatRows
import Idealize.ShloMosaic.Lib.ValueIdx
import Idealize.ShloMosaic.Lib.IdealHost
import Idealize.ShloMosaic.PureOps.Ideal.Laws

noncomputable section

namespace Cert.RefValue

open Idealize.ShloMosaic Idealize.ShloMosaic.ValueIdx Cert.ReferenceIdeal Cert.ReferenceIdeal.Read

/-- The reference's activation, entry by entry: `x * (1 / (1 + exp (-x)))` is `x · σ(x)`. -/
theorem act_apply (x0 : (⟨S1000000x128, .f32⟩ : BufTy).Contents (Elt Ideal)) (x1 : (⟨S200000x128, .f32⟩ : BufTy).Contents (Elt Ideal))
    (x2 : (⟨S2x400000, .i32⟩ : BufTy).Contents (Elt Ideal)) (x3 : (⟨S400000, .i32⟩ : BufTy).Contents (Elt Ideal))
    (x4 : (⟨S384x128, .f32⟩ : BufTy).Contents (Elt Ideal)) (x5 : (⟨S128, .f32⟩ : BufTy).Contents (Elt Ideal))
    (i : S400000x128.Idx) :
    val_main_v30 (F := Ideal) x0 x1 x2 x3 x4 x5 i = RowMlp.act (val_main_v29 (F := Ideal) x0 x1 x2 x3 x4 x5 i) := by
  rw [val_main_v30_apply, val_main_call0_v5_apply, val_main_call0_v4_apply, val_main_call0_cst_0_apply,
    val_main_call0_v3_apply, val_main_call0_v2_apply, val_main_call0_cst_apply, val_main_call0_v1_apply,
    val_main_call0_v0_apply]
  generalize val_main_v29 (F := Ideal) x0 x1 x2 x3 x4 x5 i = y
  simp only [Ideal.mulf_def, Ideal.hostDivf_def, Ideal.addf_def, Ideal.hostUnary_exp_def, Ideal.hostNegf_def,
    Ideal.negf_def, Ideal.ofBits_def, Ideal.ofBits_one_f32]
  rfl

/-- Entry `(e, k)` of the first layer's output: the hidden row of the concatenated row. -/
theorem hidden_apply (x0 : (⟨S1000000x128, .f32⟩ : BufTy).Contents (Elt Ideal)) (x1 : (⟨S200000x128, .f32⟩ : BufTy).Contents (Elt Ideal))
    (x2 : (⟨S2x400000, .i32⟩ : BufTy).Contents (Elt Ideal)) (x3 : (⟨S400000, .i32⟩ : BufTy).Contents (Elt Ideal))
    (x4 : (⟨S384x128, .f32⟩ : BufTy).Contents (Elt Ideal)) (x5 : (⟨S128, .f32⟩ : BufTy).Contents (Elt Ideal))
    (e : Fin 400000) (k : Fin 128) :
    val_main_v29 (F := Ideal) x0 x1 x2 x3 x4 x5 (ix2 e k)
      = RowMlp.hidden1
          (RowMlp.cat3 (fun j => val_main_v17 (F := Ideal) x1 x2 (ix2 e j)) (fun j => val_main_v24 (F := Ideal) x1 x2 (ix2 e j))
            (fun j => val_main_v10 (F := Ideal) x0 x3 (ix2 e j)))
          (fun j k => x4 (ix2 j k)) (fun k => x5 (ix1 k)) k := by
  rw [val_main_v29_apply, val_main_v26_apply, val_main_v28_apply, val_main_v27_apply, Ideal.addf_def]
  unfold RowMlp.hidden1
  have hb : idx_main_v27 (idx_main_v28 (ix2 e k)) = ix1 k :=
    funext fun a => Fin.ext (by match a with | ⟨0, _⟩ => rfl)
  rw [hb]
  congr 1
  refine Finset.sum_congr rfl fun j _ => ?_
  have hl : lidx_main_v26 (ix2 e k) j = ix2 e j :=
    funext fun a => Fin.ext (by match a with | ⟨0, _⟩ => rfl | ⟨1, _⟩ => rfl)
  have hr : ridx_main_v26 (ix2 e k) j = ix2 j k :=
    funext fun a => Fin.ext (by match a with | ⟨0, _⟩ => rfl | ⟨1, _⟩ => rfl)
  rw [hl, hr]
  unfold val_main_v25
  generalize val_main_v17 (F := Ideal) x1 x2 = a
  generalize val_main_v24 (F := Ideal) x1 x2 = b
  generalize val_main_v10 (F := Ideal) x0 x3 = c
  rw [Cert.ConcatRows.concat3_apply]

/-- Entry `(e, q)` of the array of new rows. -/
theorem upd_apply (x0 : (⟨S1000000x128, .f32⟩ : BufTy).Contents (Elt Ideal)) (x1 : (⟨S200000x128, .f32⟩ : BufTy).Contents (Elt Ideal))
    (x2 : (⟨S2x400000, .i32⟩ : BufTy).Contents (Elt Ideal)) (x3 : (⟨S400000, .i32⟩ : BufTy).Contents (Elt Ideal))
    (x4 : (⟨S384x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (e : Fin 400000) (q : Fin 128) :
    val_main_v35 (F := Ideal) x0 x1 x2 x3 x4 x5 x6 x7 (ix2 e q)
      = RowMlp.out1
          (RowMlp.cat3 (fun j => val_main_v17 (F := Ideal) x1 x2 (ix2 e j)) (fun j => val_main_v24 (F := Ideal) x1 x2 (ix2 e j))
            (fun j => val_main_v10 (F := Ideal) x0 x3 (ix2 e j)))
          (fun j => val_main_v10 (F := Ideal) x0 x3 (ix2 e j))
          (fun j k => x4 (ix2 j k)) (fun k => x5 (ix1 k)) (fun k r => x6 (ix2 k r)) (fun r => x7 (ix1 r)) q := by
  rw [val_main_v35_apply, val_main_v34_apply, val_main_v31_apply, val_main_v33_apply, val_main_v32_apply,
    Ideal.addf_def, Ideal.addf_def]
  unfold RowMlp.out1
  have hb : idx_main_v32 (idx_main_v33 (ix2 e q)) = ix1 q :=
    funext fun a => Fin.ext (by match a with | ⟨0, _⟩ => rfl)
  rw [hb]
  congr 2
  refine Finset.sum_congr rfl fun k _ => ?_
  have hl : lidx_main_v31 (ix2 e q) k = ix2 e k :=
    funext fun a => Fin.ext (by match a with | ⟨0, _⟩ => rfl | ⟨1, _⟩ => rfl)
  have hr : ridx_main_v31 (ix2 e q) k = ix2 k q :=
    funext fun a => Fin.ext (by match a with | ⟨0, _⟩ => rfl | ⟨1, _⟩ => rfl)
  rw [hl, hr, act_apply, hidden_apply]

end Cert.RefValue

end
-- ==== Proof.HostRows.lean ====
/-
  Three facts about the host operations that move whole rows of a table, for any sizes and any element type.

  * A scatter uses only the updates that land: two update arrays that agree at every update index whose target lies
    inside the operand give the same result.
  * For a scatter of rows (one start index per update row, the operand's row axis inserted), an update that lands has
    its row's start index, read as a signed word, inside the operand's row range.
  * A gather followed by a fill of the rows whose start index is outside `[lo, hi]` (the row's mask is the `and`, along
    the index column's one-element axis, of `lo ≤ index` and `index ≤ hi`) is the gather itself on every row whose
    start index is inside.
-/
import Idealize.ShloMosaic.PureOps.ShapeOps
import Idealize.ShloMosaic.PureOps.Reduce
import Idealize.ShloMosaic.Lib.ValueIdx
import Idealize.ShloMosaic.Lib.Affine

noncomputable section

namespace Cert.HostRows

open Idealize.ShloMosaic Idealize.ShloMosaic.ValueIdx

/-- A scatter reads an update only where it lands. -/
theorem scatter_congr {s si u : Shape} {w : Nat} {α : Type} (d : ScatterDims s si u) (f : α → α → α) (x : s.Idx → α)
    (idx : IVec si w) (upd upd' : u.Idx → α) (h : ∀ j, (d.resultIdx? j idx).isSome → upd j = upd' j) :
    Host.scatter d f x idx upd = Host.scatter d f x idx upd' := by
  unfold Host.scatter
  apply List.foldl_ext
  intro r n _
  cases hr : d.resultIdx? (u.rowMajor.symm n) idx with
  | none => rfl
  | some i =>
    have h1 := h (u.rowMajor.symm n) (by rw [hr]; rfl)
    simp only [h1]

/-- In a one-element list every position holds that element. -/
private theorem getElem_of_eq_singleton {β : Type} {l : List β} {a : β} (hl : l = [a]) (k : Nat) (hk : k < l.length) :
    l[k] = a := by
  subst hl
  have hk0 : k = 0 := by simpa using hk
  subst hk0
  rfl

/-- In a scatter of rows, an update that lands has its row's start index inside the operand's rows. -/
theorem row_start_in_range {N n C : Nat} (d : ScatterDims (⟨2, ![N, C]⟩ : Shape) (⟨2, ![n, 1]⟩ : Shape) (⟨2, ![n, C]⟩ : Shape))
    (hu : d.updateWindowDims = [1]) (hi : d.insertedWindowDims = [0]) (hs : d.scatterDimsToOperandDims = [0])
    (hv : d.indexVectorDim = 1) (idx : IVec (⟨2, ![n, 1]⟩ : Shape) 32) (j : (⟨2, ![n, C]⟩ : Shape).Idx)
    (h : (d.resultIdx? j idx).isSome) :
    0 ≤ (idx (ix2 (j 0) (0 : Fin 1))).toInt ∧ (idx (ix2 (j 0) (0 : Fin 1))).toInt < (N : ℤ) := by
  unfold ScatterDims.resultIdx? at h
  split at h
  case isFalse => simp at h
  case isTrue hall =>
    have h0 := hall 0
    -- axis 0 is inserted, so it carries no window coordinate
    have hw : d.window j 0 = 0 := by
      unfold ScatterDims.window
      rw [dif_neg]
      simp [ScatterDims.sKept, Shape.kept, hi]
    have hmem : (0 : Fin (⟨2, ![N, C]⟩ : Shape).rank) ∈ d.scatterDimsToOperandDims := by rw [hs]; simp
    -- the updates' one scatter axis is axis 0
    have huS : d.uScatter = [0] := by
      simp only [ScatterDims.uScatter, Shape.kept, hu]; rfl
    -- the start on axis 0 is the row's start index, read signed
    have hst : d.start j idx 0 = (idx (ix2 (j 0) (0 : Fin 1))).toInt := by
      unfold ScatterDims.start
      rw [dif_pos hmem]
      congr 2
      funext b
      match b with
      | ⟨0, hb⟩ =>
        unfold ScatterDims.siIdx
        rw [dif_neg (by simp [hv])]
        apply Fin.ext
        unfold ScatterDims.siCoord
        simp only [Fin.coe_cast]
        rw [getElem_of_eq_singleton huS]
      | ⟨1, hb⟩ =>
        unfold ScatterDims.siIdx
        rw [dif_pos (by simp [hv])]
        apply Fin.ext
        simp only [hs]
        rfl
    rw [hw, hst] at h0
    have hN : (⟨2, ![N, C]⟩ : Shape).size 0 = N := rfl
    rw [hN] at h0
    simpa using h0

/-- A left fold by `and` from the bit 1 over bits that are all 1 is 1. -/
private theorem foldl_andi_one {β : Type} (g : β → BitVec 1) (l : List β) (hg : ∀ i ∈ l, g i = 1#1) :
    l.foldl (fun r i => IntOp.andi r (g i)) 1#1 = 1#1 := by
  induction l with
  | nil => rfl
  | cons a l ih =>
    rw [List.foldl_cons, hg a List.mem_cons_self]
    have h11 : IntOp.andi 1#1 1#1 = 1#1 := by decide
    rw [h11]
    exact ih fun i hi => hg i (List.mem_cons_of_mem _ hi)

/-- The filled gather is the gather on a row whose start index is inside `[lo, hi]`. -/
theorem take_fill_apply {α : Type} {n C : Nat} (col lo hi : IVec (⟨2, ![n, 1]⟩ : Shape) 32)
    (G fill : (⟨2, ![n, C]⟩ : Shape).Idx → α)
    (hred : (⟨2, ![n, 1]⟩ : Shape).ReducesTo [1] (⟨1, ![n]⟩ : Shape)) (hu : 0 < (⟨0, ![]⟩ : Shape).numel)
    (hb : (⟨1, ![n]⟩ : Shape).BroadcastsInDim (⟨2, ![n, C]⟩ : Shape) ![0]) (e : Fin n) (q : Fin C)
    (hlo : (lo (ix2 e (0 : Fin 1))).toInt ≤ (col (ix2 e (0 : Fin 1))).toInt)
    (hhi : (col (ix2 e (0 : Fin 1))).toInt ≤ (hi (ix2 e (0 : Fin 1))).toInt) :
    select (broadcastInDim (⟨2, ![n, C]⟩ : Shape) ![0] hb
        (Host.reduce IntOp.andi (andi (cmpi .sge col lo) (cmpi .sle col hi)) (constantI (⟨0, ![]⟩ : Shape) 1 1#1) hred hu))
      G fill (ix2 e q) = G (ix2 e q) := by
  -- the broadcast along the rows reads the row's entry of the vector
  have hbc : ∀ v : (⟨1, ![n]⟩ : Shape).Idx → BitVec 1,
      broadcastInDim (⟨2, ![n, C]⟩ : Shape) ![0] hb v (ix2 e q) = v (ix1 e) := by
    intro v
    unfold broadcastInDim
    refine congrArg v (funext fun a => ?_)
    match a with
    | ⟨0, h0⟩ =>
      -- on the vector's one axis: the row coordinate, which is 0 when there is one row
      by_cases h1 : (⟨1, ![n]⟩ : Shape).size ⟨0, h0⟩ = 1
      · rw [dif_pos h1]
        apply Fin.ext
        have hn : n = 1 := h1
        have he := e.isLt
        show (0 : Nat) = e.val
        omega
      · rw [dif_neg h1]
        rfl
  -- the row's mask bit is 1
  have hbit : Host.reduce IntOp.andi (andi (cmpi .sge col lo) (cmpi .sle col hi))
      (constantI (⟨0, ![]⟩ : Shape) 1 1#1) hred hu (ix1 e) = 1#1 := by
    rw [Host.reduce_eq_foldl]
    show List.foldl _ 1#1 _ = 1#1
    apply foldl_andi_one
    intro i hi'
    rw [List.mem_filter] at hi'
    have hd : hred.drop i = ix1 e := by simpa using hi'.2
    have h0 : (i 0).val = e.val := by
      have hk := Shape.ReducesTo.drop_apply_val hred i 0
      rw [hd] at hk
      exact hk.symm
    have hi0 : i = ix2 e (0 : Fin 1) := by
      funext b
      match b with
      | ⟨0, _⟩ => exact Fin.ext h0
      | ⟨1, h1⟩ =>
        apply Fin.ext
        have hlt : (i ⟨1, h1⟩).val < 1 := (i ⟨1, h1⟩).isLt
        show (i ⟨1, h1⟩).val = 0
        omega
    subst hi0
    show IntOp.andi (IntOp.cmpi .sge (col _) (lo _)) (IntOp.cmpi .sle (col _) (hi _)) = 1#1
    exact IntOp.andi_eq_one.2 ⟨IntOp.cmpi_sge.2 hlo, IntOp.cmpi_sle.2 hhi⟩
  rw [select_apply, hbc, hbit, select_one]

end Cert.HostRows

end
-- ==== Proof.IndexCol.lean ====
/-
  Index vectors as the host programs prepare them, read at one entry.

  A signed 32-bit index `a` into an axis of extent `N` is wrapped: `a + N` when `a < 0`, else `a`. For `-N ≤ a < N`
  the wrapped index lies in `[0, N - 1]` (no overflow: `N` is far below 2³¹). The wrapped vector is stood up as an
  `[n, 1]` column of start indices; entry `(e, 0)` of the column is the wrapped entry `e` of the vector. The bounds a
  row's start index is compared with are constants broadcast to the column's shape, and a row of the `[2, n]` edge list
  taken as a vector reads the list at that row.
-/
import Idealize.ShloMosaic.PureOps.ShapeOps
import Idealize.ShloMosaic.PureOps.Vector
import Idealize.ShloMosaic.Lib.ValueIdx
import Idealize.ShloMosaic.Lib.Affine
import Idealize.ShloMosaic.Lib.Pipeline.Value

noncomputable section

namespace Cert.IndexCol

open Idealize.ShloMosaic Idealize.ShloMosaic.ValueIdx

/-- One index wrapped into `[0, N)` from `[-N, N)`. -/
def wrap (N a : BitVec 32) : BitVec 32 := Scalar.select (IntOp.cmpi .slt a 0#32) (IntOp.addi a N) a

/-- A wrapped index of `[-N, N)` lies in `[0, N - 1]`. -/
theorem wrap_in_range (N : Nat) (hN : N < 2 ^ 30) (a : BitVec 32) (hlo : -(N : ℤ) ≤ a.toInt) (hhi : a.toInt < (N : ℤ)) :
    0 ≤ (wrap (BitVec.ofNat 32 N) a).toInt ∧ (wrap (BitVec.ofNat 32 N) a).toInt ≤ (N : ℤ) - 1 := by
  have bm : ∀ x : ℤ, -2147483648 ≤ x → x < 2147483648 → x.bmod (2 ^ 32) = x := by
    intro x h1 h2
    apply Int.bmod_eq_of_le
    · norm_num; omega
    · norm_num; omega
  have hN' : N < 1073741824 := by
    have h30 : (2 : Nat) ^ 30 = 1073741824 := by norm_num
    omega
  have hNi : (BitVec.ofNat 32 N).toInt = (N : ℤ) := by
    rw [BitVec.toInt_ofNat']
    exact bm _ (by omega) (by omega)
  have h0 : (0#32).toInt = 0 := BitVec.toInt_zero
  unfold wrap Scalar.select
  by_cases hneg : a.toInt < 0
  · have hc : IntOp.cmpi .slt a 0#32 = (1 : BitVec 1) := IntOp.cmpi_slt.mpr (by rw [h0]; exact hneg)
    rw [if_pos hc]
    have hadd : (IntOp.addi a (BitVec.ofNat 32 N)).toInt = a.toInt + (N : ℤ) := by
      unfold IntOp.addi
      rw [BitVec.toInt_add, hNi]
      exact bm _ (by omega) (by omega)
    rw [hadd]
    constructor <;> omega
  · have hc : ¬ IntOp.cmpi .slt a 0#32 = (1 : BitVec 1) := fun h => hneg (by
      have h' := IntOp.cmpi_slt.mp h
      rwa [h0] at h')
    rw [if_neg hc]
    constructor <;> omega

/-- Entry `(e, 0)` of the column of wrapped start indices. -/
theorem normCol_apply {n : Nat} (N : BitVec 32) (v : IVec (⟨1, ![n]⟩ : Shape) 32)
    (hb1 : (⟨1, ![n]⟩ : Shape).BroadcastsInDim (⟨2, ![n, 1]⟩ : Shape) ![0])
    (hb0 : (⟨0, ![]⟩ : Shape).BroadcastsInDim (⟨1, ![n]⟩ : Shape) ![]) (e : Fin n) :
    broadcastInDim (⟨2, ![n, 1]⟩ : Shape) ![0] hb1
        (select (cmpi .slt v (broadcastInDim (⟨1, ![n]⟩ : Shape) ![] hb0 (constantI (⟨0, ![]⟩ : Shape) 32 0#32)))
          (addi v (broadcastInDim (⟨1, ![n]⟩ : Shape) ![] hb0 (constantI (⟨0, ![]⟩ : Shape) 32 N))) v)
        (ix2 e (0 : Fin 1))
      = wrap N (v (ix1 e)) := by
  refine (broadcastInDim_apply ![0] hb1 _ (ix2 e (0 : Fin 1)) (ix1 e) (fun a => match a with
    | ⟨0, _⟩ => by
        show e.val = if n = 1 then 0 else e.val
        split
        · have := e.isLt; omega
        · rfl)).trans ?_
  rfl

/-- The lower bound's column: a scalar constant broadcast to `[n, 1]`. -/
theorem lo_apply {n : Nat} (w : BitVec 32) (hb : (⟨0, ![]⟩ : Shape).BroadcastsInDim (⟨2, ![n, 1]⟩ : Shape) ![]) (e : Fin n) :
    broadcastInDim (⟨2, ![n, 1]⟩ : Shape) ![] hb (constantI (⟨0, ![]⟩ : Shape) 32 w) (ix2 e (0 : Fin 1)) = w := by
  rfl

/-- The upper bound's column: a one-element constant broadcast to `[1, 1]` and then to `[n, 1]`. -/
theorem hi_apply {n : Nat} (w : BitVec 32) (h1 : (⟨1, ![1]⟩ : Shape).BroadcastsInDim (⟨2, ![1, 1]⟩ : Shape) ![1])
    (h2 : (⟨2, ![1, 1]⟩ : Shape).BroadcastsInDim (⟨2, ![n, 1]⟩ : Shape) ![0, 1]) (e : Fin n) :
    broadcastInDim (⟨2, ![n, 1]⟩ : Shape) ![0, 1] h2
      (broadcastInDim (⟨2, ![1, 1]⟩ : Shape) ![1] h1 (constantI (⟨1, ![1]⟩ : Shape) 32 w)) (ix2 e (0 : Fin 1)) = w := by
  rfl

/-- Row `r` of a `[2, n]` array taken as a vector (a `[1, n]` slice reshaped to `[n]`) reads the array at `(r, e)`. -/
theorem row_apply {n : Nat} (r : Nat) (hr : r < 2) (x : IVec (⟨2, ![2, n]⟩ : Shape) 32)
    (hs : (⟨2, ![2, n]⟩ : Shape).Slices ![r, 0] (⟨2, ![1, n]⟩ : Shape))
    (hc : (⟨2, ![1, n]⟩ : Shape).ShapeCasts (⟨1, ![n]⟩ : Shape)) (e : Fin n) :
    shapeCast (⟨1, ![n]⟩ : Shape) (extractStridedSlice (⟨2, ![1, n]⟩ : Shape) ![r, 0] x hs) hc (ix1 e)
      = x (ix2 (⟨r, hr⟩ : Fin 2) e) := by
  refine (shapeCast_apply _ hc (ix1 e) (ix2 (0 : Fin 1) e) ?_).trans ?_
  · rw [Shape.rowMajor_val_two, Shape.rowMajor_val_one]
    show 0 * n + e.val = e.val
    omega
  · exact extractStridedSlice_apply ![r, 0] x hs (ix2 (0 : Fin 1) e) (ix2 (⟨r, hr⟩ : Fin 2) e) (fun a => match a with
      | ⟨0, _⟩ => by show r = r + 0; omega
      | ⟨1, _⟩ => by show e.val = 0 + e.val; omega)

end Cert.IndexCol

end
-- ==== Proof.WeightRead.lean ====
/-
  The weight and bias arrays as the kernel's program cuts them, read at an entry: a 128-row slab of the 384 × 128
  first matrix cut at row offset `128 s` reads the matrix at row `128 s + j`; a bias vector reshaped to a `[1, 128]` row
  reads the vector at the column.
-/
import proofs.«408659_j85323820302757_1_alg».proof.Proof.RowMlp
import Idealize.ShloMosaic.PureOps.ShapeOps
import Idealize.ShloMosaic.Lib.ValueIdx
import Idealize.ShloMosaic.Lib.Pipeline.Value

noncomputable section

namespace Cert.WeightRead

open Idealize.ShloMosaic Idealize.ShloMosaic.ValueIdx

/-- Entry `(j, k)` of the slab cut at row offset `off = 128 s`. -/
theorem slab_apply (s : Fin 3) (off : Nat) (hoff : off = 128 * s.val) (x : (⟨2, ![384, 128]⟩ : Shape).Idx → EReal)
    (hs : (⟨2, ![384, 128]⟩ : Shape).Slices ![off, 0] (⟨2, ![128, 128]⟩ : Shape)) (j k : Fin 128) :
    extractStridedSlice (⟨2, ![128, 128]⟩ : Shape) ![off, 0] x hs (ix2 j k)
      = RowMlp.slab (fun a b => x (ix2 a b)) s j k := by
  subst hoff
  unfold RowMlp.slab
  exact extractStridedSlice_apply ![128 * s.val, 0] x hs (ix2 j k)
    (ix2 ⟨128 * s.val + j.val, by have := s.isLt; have := j.isLt; omega⟩ k) (fun a => match a with
    | ⟨0, _⟩ => by show 128 * s.val + j.val = 128 * s.val + j.val; rfl
    | ⟨1, _⟩ => by show k.val = 0 + k.val; omega)

/-- Entry `(0, k)` of a 128-vector reshaped to a `[1, 128]` row. -/
theorem bias_apply (x : (⟨1, ![128]⟩ : Shape).Idx → EReal) (hc : (⟨1, ![128]⟩ : Shape).ShapeCasts (⟨2, ![1, 128]⟩ : Shape))
    (k : Fin 128) :
    shapeCast (⟨2, ![1, 128]⟩ : Shape) x hc (ix2 (0 : Fin 1) k) = x (ix1 k) := by
  exact shapeCast_apply x hc (ix2 (0 : Fin 1) k) (ix1 k)
    (by rewrite [Shape.rowMajor_val_two, Shape.rowMajor_val_one]; show k.val = 0 * 128 + k.val; omega)

end Cert.WeightRead

end
-- ==== Proof.Bridge.lean ====
/-
  The two programs' results are one array.

  Both programs end by scattering an array of 400000 new rows into the edge table at the wrapped table indices, and a
  scatter uses only the rows that land: those whose wrapped index lies inside the table. So it is enough that the two
  arrays of new rows agree on every such row.

  On such a row the kernel's filled gather of the table row is the plain gather the reference makes (the row's index is
  in range, so nothing is filled). Under the precondition every edge endpoint, wrapped, lies inside the node table, so
  the kernel's two filled gathers of node rows are the reference's plain gathers as well. The weights are the same
  numbers: the kernel's three slabs are the three row ranges of the first matrix, its bias rows the bias vectors. With
  equal inputs the kernel's row function (three partial products added up) and the reference's (one product over the
  concatenated row) agree by splitting the sum over 384 indices into its three ranges.
-/
import proofs.«408659_j85323820302757_1_alg».proof.Proof.KernelArray
import proofs.«408659_j85323820302757_1_alg».proof.Proof.KernelCover
import proofs.«408659_j85323820302757_1_alg».proof.Proof.KernelHost
import proofs.«408659_j85323820302757_1_alg».proof.Proof.RefValue
import proofs.«408659_j85323820302757_1_alg».proof.Proof.HostRows
import proofs.«408659_j85323820302757_1_alg».proof.Proof.IndexCol
import proofs.«408659_j85323820302757_1_alg».proof.Proof.PreDecode
import proofs.«408659_j85323820302757_1_alg».proof.Proof.WeightRead
import proofs.«408659_j85323820302757_1_alg».proof.Proof.RowMlp
import proofs.«408659_j85323820302757_1_alg».proof.Proof.Gen.ReferenceIdeal.Read

noncomputable section

namespace Cert.Bridge

open Idealize.ShloMosaic Idealize.ShloMosaic.TcCoe Idealize.SL.Sem Idealize.ShloMosaic.ValueIdx
open Cert.KernelIdeal Cert.KernelIdeal.Gen Cert.KernelHost

variable (m : (ℓ : Loc nD τ sig) → Buf (Elt Ideal) ℓ) (c : Dev nD)

/-- On a row whose start index lies in `[0, hiw]` the filled gather is the gather. -/
theorem fill_row (hiw : BitVec 32) (col : IVec S400000x1 32) (Gt : S400000x128.Idx → EReal) (e : Fin 400000) (j : Fin 128)
    (h0 : 0 ≤ (col (ix2 e (0 : Fin 1))).toInt) (h1 : (col (ix2 e (0 : Fin 1))).toInt ≤ hiw.toInt) :
    select (inRangeMask hiw col) Gt fillRows (ix2 e j) = Gt (ix2 e j) := by
  unfold inRangeMask
  refine HostRows.take_fill_apply (n := 400000) (C := 128) col _ _ Gt fillRows reducesTo_S400000x1_S400000_d1 h_S_
    bcast_S400000_S400000x128_0 e j ?_ ?_
  · rw [IndexCol.lo_apply]
    show (0#32 : BitVec 32).toInt ≤ _
    rw [show (0#32 : BitVec 32).toInt = 0 from by decide]
    exact h0
  · rw [IndexCol.hi_apply]
    exact h1

/-- Under the precondition both endpoints of every edge, wrapped, are rows of the node table. -/
theorem edge_col_range
    (hpre : ∀ (r : Fin 2) (e : Fin 400000), -200000 ≤ (x2 m c (ix2 r e)).toInt ∧ (x2 m c (ix2 r e)).toInt < 200000)
    (e : Fin 400000) :
    (0 ≤ (normCol 200000#32 (idxRow0 (x2 m c)) (ix2 e (0 : Fin 1))).toInt
        ∧ (normCol 200000#32 (idxRow0 (x2 m c)) (ix2 e (0 : Fin 1))).toInt ≤ (199999#32 : BitVec 32).toInt)
      ∧ (0 ≤ (normCol 200000#32 (idxRow1 (x2 m c)) (ix2 e (0 : Fin 1))).toInt
        ∧ (normCol 200000#32 (idxRow1 (x2 m c)) (ix2 e (0 : Fin 1))).toInt ≤ (199999#32 : BitVec 32).toInt) := by
  have hw : (199999#32 : BitVec 32).toInt = 199999 := by decide
  rw [hw]
  unfold normCol idxRow0 idxRow1
  rw [IndexCol.normCol_apply, IndexCol.normCol_apply, IndexCol.row_apply 0 (by decide), IndexCol.row_apply 1 (by decide)]
  have w0 := IndexCol.wrap_in_range 200000 (by norm_num) (x2 m c (ix2 (0 : Fin 2) e)) (by have := (hpre 0 e).1; simpa using this)
    (by have := (hpre 0 e).2; simpa using this)
  have w1 := IndexCol.wrap_in_range 200000 (by norm_num) (x2 m c (ix2 (1 : Fin 2) e)) (by have := (hpre 1 e).1; simpa using this)
    (by have := (hpre 1 e).2; simpa using this)
  refine ⟨⟨w0.1, ?_⟩, ⟨w1.1, ?_⟩⟩
  · have := w0.2; simpa using this
  · have := w1.2; simpa using this

/-- On a row whose wrapped table index lies inside the table, the kernel's table row is the reference's. -/
theorem st_row (e : Fin 400000) (j : Fin 128)
    (h0 : 0 ≤ (normCol 1000000#32 (x3 m c) (ix2 e (0 : Fin 1))).toInt)
    (h1 : (normCol 1000000#32 (x3 m c) (ix2 e (0 : Fin 1))).toInt < 1000000) :
    KernelArray.aSt m c (ix2 e j) = Cert.ReferenceIdeal.Read.val_main_v10 (F := Ideal) (x0 m c) (x3 m c) (ix2 e j) := by
  show (V m c main_v6 : S400000x128.Idx → EReal) (ix2 e j) = _
  rw [V_v6]
  have hw : (999999#32 : BitVec 32).toInt = 999999 := by decide
  refine (fill_row _ _ _ e j h0 (by rw [hw]; omega)).trans ?_
  rfl

variable (hpre : ∀ (r : Fin 2) (e : Fin 400000), -200000 ≤ (x2 m c (ix2 r e)).toInt ∧ (x2 m c (ix2 r e)).toInt < 200000)
include hpre

/-- The kernel's source-node rows are the reference's. -/
theorem hs_row (e : Fin 400000) (j : Fin 128) :
    KernelArray.aHs m c (ix2 e j) = Cert.ReferenceIdeal.Read.val_main_v17 (F := Ideal) (x1 m c) (x2 m c) (ix2 e j) := by
  show (V m c main_v4 : S400000x128.Idx → EReal) (ix2 e j) = _
  rw [V_v4]
  refine (fill_row _ _ _ e j (edge_col_range m c hpre e).1.1 (edge_col_range m c hpre e).1.2).trans ?_
  rfl

/-- The kernel's destination-node rows are the reference's. -/
theorem hd_row (e : Fin 400000) (j : Fin 128) :
    KernelArray.aHd m c (ix2 e j) = Cert.ReferenceIdeal.Read.val_main_v24 (F := Ideal) (x1 m c) (x2 m c) (ix2 e j) := by
  show (V m c main_v5 : S400000x128.Idx → EReal) (ix2 e j) = _
  rw [V_v5]
  refine (fill_row _ _ _ e j (edge_col_range m c hpre e).2.1 (edge_col_range m c hpre e).2.2).trans ?_
  rfl

/-- On such a row the two programs' new rows agree. -/
theorem rows_eq (e : Fin 400000) (q : Fin 128)
    (h0 : 0 ≤ (normCol 1000000#32 (x3 m c) (ix2 e (0 : Fin 1))).toInt)
    (h1 : (normCol 1000000#32 (x3 m c) (ix2 e (0 : Fin 1))).toInt < 1000000) :
    KernelArray.rowOut m c e q
      = Cert.ReferenceIdeal.Read.val_main_v35 (F := Ideal) (x0 m c) (x1 m c) (x2 m c) (x3 m c) (x4 m c) (x5 m c) (x6 m c) (x7 m c) (ix2 e q) := by
  rw [RefValue.upd_apply, RowMlp.out1_cat3]
  unfold KernelArray.rowOut
  refine KernelArray.out3_congr q (funext fun j => hs_row m c hpre e j) (funext fun j => hd_row m c hpre e j)
    (funext fun j => st_row m c e j h0 h1) (funext fun j => funext fun k => ?_) (funext fun j => funext fun k => ?_)
    (funext fun j => funext fun k => ?_) (funext fun k => ?_) (funext fun k => funext fun r => ?_) (funext fun r => ?_)
  · show (V m c main_v7 : S128x128.Idx → EReal) (ix2 j k) = _
    rw [V_v7]
    exact WeightRead.slab_apply 0 0 rfl (x4 m c) _ j k
  · show (V m c main_v8 : S128x128.Idx → EReal) (ix2 j k) = _
    rw [V_v8]
    exact WeightRead.slab_apply 1 128 rfl (x4 m c) _ j k
  · show (V m c main_v9 : S128x128.Idx → EReal) (ix2 j k) = _
    rw [V_v9]
    exact WeightRead.slab_apply 2 256 rfl (x4 m c) _ j k
  · show (V m c main_v10 : S1x128.Idx → EReal) (ix2 (0 : Fin 1) k) = _
    rw [V_v10]
    exact WeightRead.bias_apply (x5 m c) _ k
  · show (V m c main_arg6 : S128x128.Idx → EReal) (ix2 k r) = _
    rw [V_arg6]
  · show (V m c main_v11 : S1x128.Idx → EReal) (ix2 (0 : Fin 1) r) = _
    rw [V_v11]
    exact WeightRead.bias_apply (x7 m c) _ r

/-- THE RESULTS: the reference's scatter of its new rows is the kernel's scatter of the region's output. -/
theorem results_eq :
    Cert.ReferenceIdeal.Read.val_main_v42 (F := Ideal) (x0 m c) (x1 m c) (x2 m c) (x3 m c) (x4 m c) (x5 m c) (x6 m c) (x7 m c)
      = Host.scatter scatter_S1000000x128_S400000x1_S400000x128_1_0_0_1 (fun _ b => b) (x0 m c)
          (normCol 1000000#32 (x3 m c)) ((dats m 0 c).arrAt 9 cfg0.N) := by
  unfold Cert.ReferenceIdeal.Read.val_main_v42
  rw [KernelArray.arr9]
  show Host.scatter scatter_S1000000x128_S400000x1_S400000x128_1_0_0_1 (fun _ b => b) (x0 m c) (normCol 1000000#32 (x3 m c))
      (Cert.ReferenceIdeal.Read.val_main_v35 (F := Ideal) (x0 m c) (x1 m c) (x2 m c) (x3 m c) (x4 m c) (x5 m c) (x6 m c) (x7 m c)) = _
  refine HostRows.scatter_congr _ _ _ _ _ _ fun j hj => ?_
  obtain ⟨e, q, rfl⟩ : ∃ (e : Fin 400000) (q : Fin 128), j = ix2 e q := ⟨j 0, j 1, eq_ix2 j⟩
  have hr := HostRows.row_start_in_range (N := 1000000) (n := 400000) (C := 128) scatter_S1000000x128_S400000x1_S400000x128_1_0_0_1
    rfl rfl rfl rfl (normCol 1000000#32 (x3 m c)) (ix2 e q) hj
  rw [KernelArray.G_ix2]
  exact (rows_eq m c hpre e q hr.1 (by have := hr.2; simpa using this)).symm

end Cert.Bridge

end
-- ==== Proof.lean ====
/-
  The certificate: the fused edge update (gather the two endpoint rows and the edge's own row, a two-layer perceptron on
  their concatenation, add the result to the edge's row, scatter the new rows back) computed by a row-tiled kernel
  equals its plain reference over the extended reals, for finite floats and edge endpoints that are valid indices of
  the node table.

  The three frames are the programs' runs: the kernel's two are generated whole; the reference's is its generated run
  with the result dropped. The idealization rewrote nothing, so `preserves` is trivial. For `algebraic` the kernel's run
  gives the result as the scatter of the region's output array into the edge table, the reference's run gives its
  composed term, and the two are one array (Proof/Bridge.lean): a scatter uses only the rows that land, and on those
  rows the two programs' row functions agree.
-/
import proofs.«408659_j85323820302757_1_alg».proof.Defs
import proofs.«408659_j85323820302757_1_alg».proof.Proof.Gen.Kernel
import proofs.«408659_j85323820302757_1_alg».proof.Proof.Gen.Kernel.Skeleton
import proofs.«408659_j85323820302757_1_alg».proof.Proof.Gen.Kernel.Launch
import proofs.«408659_j85323820302757_1_alg».proof.Proof.Gen.Kernel.Points
import proofs.«408659_j85323820302757_1_alg».proof.Proof.Gen.Kernel.Frame
import proofs.«408659_j85323820302757_1_alg».proof.Proof.Gen.KernelIdeal
import proofs.«408659_j85323820302757_1_alg».proof.Proof.Gen.KernelIdeal.Skeleton
import proofs.«408659_j85323820302757_1_alg».proof.Proof.Gen.KernelIdeal.Launch
import proofs.«408659_j85323820302757_1_alg».proof.Proof.Gen.KernelIdeal.Points
import proofs.«408659_j85323820302757_1_alg».proof.Proof.Gen.KernelIdeal.Frame
import proofs.«408659_j85323820302757_1_alg».proof.Proof.Gen.ReferenceIdeal
import proofs.«408659_j85323820302757_1_alg».proof.Proof.Gen.Pre_finite_inputs
import proofs.«408659_j85323820302757_1_alg».proof.Proof.Gen.ReferenceIdeal.Run
import proofs.«408659_j85323820302757_1_alg».proof.Proof.Gen.ReferenceIdeal.Read
import proofs.«408659_j85323820302757_1_alg».proof.Proof.KernelHost
import proofs.«408659_j85323820302757_1_alg».proof.Proof.PreDecode
import proofs.«408659_j85323820302757_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen

/-- The kernel's run, read: the result buffer ends at the scatter of the region's output array into the edge table at
    the wrapped indices, and the arguments end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
          = Host.scatter scatter_S1000000x128_S400000x1_S400000x128_1_0_0_1 (fun _ b => b) (Cert.KernelHost.x0 m c)
              (Cert.KernelHost.normCol 1000000#32 (Cert.KernelHost.x3 m c)) ((dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨((h c).2 main_v19 (Pipeline.mem_restRefs_of main_v19 (by decide) (by decide))).trans (Cert.KernelHost.tail_v19 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c))⟩)
    (run_main m ρ)

end

theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq m' c]
  obtain ⟨a0, a1, a2, a3, a4, a5, a6, a7⟩ := hagree c
  rw [a0, a1, a2, a3, a4, a5, a6, a7]
  exact Cert.Bridge.results_eq m c (Cert.PreDecode.edge_in_range _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
